-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S50000 : Shape := ⟨1, ![50000]⟩
abbrev S64x64 : Shape := ⟨2, ![64, 64]⟩
abbrev S_ : Shape := ⟨0, ![]⟩
abbrev S1x1000000 : Shape := ⟨2, ![1, 1000000]⟩
abbrev S1000000 : Shape := ⟨1, ![1000000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg1 : IVec S2x1000000 32) (main_v33 : IVec S_ 1) : IVec S_ 1 :=
  let main_v34 : IVec S1x1000000 32 := (extractStridedSlice S1x1000000 ![0, 0] · slices_S2x1000000_S1x1000000_0_0) main_arg1
  let main_v35 : IVec S1000000 32 := shapeCast S1000000 main_v34 shapeCasts_S1x1000000_S1000000
  let main_c_12 : IVec S_ 32 := constantI S_ 32 0#32
  let main_v36 : IVec S1000000 32 := broadcastInDim S1000000 ![] bcast_S_S1000000 main_c_12
  let main_v37 : IVec S1000000 1 := cmpi .sge main_v35 main_v36
  let main_v38 : IVec S1x1000000 32 := (extractStridedSlice S1x1000000 ![0, 0] · slices_S2x1000000_S1x1000000_0_0) main_arg1
  let main_v39 : IVec S1000000 32 := shapeCast S1000000 main_v38 shapeCasts_S1x1000000_S1000000
  let main_c_13 : IVec S_ 32 := constantI S_ 32 50000#32
  let main_v40 : IVec S1000000 32 := broadcastInDim S1000000 ![] bcast_S_S1000000 main_c_13
  let main_v41 : IVec S1000000 1 := cmpi .slt main_v39 main_v40
  let main_v42 : IVec S1000000 1 := andi main_v37 main_v41
  let main_c_14 : IVec S_ 1 := constantI S_ 1 1#1
  let main_v43 : IVec S_ 1 := (fun x v => Host.reduce IntOp.andi x v reducesTo_S1000000_S_d0 h_S_) main_v42 main_c_14
  let main_v44 : IVec S_ 1 := andi main_v33 main_v43
  main_v44

def fn_part1 {F : FTy → Type} [FloatOps F] (main_arg1 : IVec S2x1000000 32) (main_arg6 : FVec F S64x64 .f32) (main_arg7 : FVec F S64x64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x1000000 32) (main_arg2 : IVec S50000 32) (main_arg3 : FVec F S64x64 .f32) (main_arg4 : FVec F S64x64 .f32) (main_arg5 : FVec F S64x64 .f32) (main_arg6 : FVec F S64x64 .f32) (main_arg7 : FVec F S64x64 .f32) (main_arg8 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_v13 main_v16
-- ==== Kernel.lean ====
abbrev S50000x64 : Shape := ⟨2, ![50000, 64]⟩
abbrev S2x1000000 : Shape := ⟨2, ![2, 1000000]⟩
abbrev S50000 : Shape := ⟨1, ![50000]⟩
abbrev S64x64 : Shape := ⟨2, ![64, 64]⟩
abbrev S1x1000000 : Shape := ⟨2, ![1, 1000000]⟩
abbrev S1000000 : Shape := ⟨1, ![1000000]⟩
abbrev S5000x64 : Shape := ⟨2, ![5000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S256x64 : Shape := ⟨2, ![256, 64]⟩
abbrev S50000x1 : Shape := ⟨2, ![50000, 1]⟩

abbrev nBuf : Space → Nat
  | .hbm => 113
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S50000, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S50000x64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1, .i32⟩
  | .hbm, ⟨23, _⟩ => ⟨S_, .i32⟩
  | .hbm, ⟨24, _⟩ => ⟨S1000000x1, .i32⟩
  | .hbm, ⟨25, _⟩ => ⟨S1000000x1, .i1⟩
  | .hbm, ⟨26, _⟩ => ⟨S1x1, .i32⟩
  | .hbm, ⟨27, _⟩ => ⟨S1000000x1, .i32⟩
  | .hbm, ⟨28, _⟩ => ⟨S1000000x1, .i1⟩
  | .hbm, ⟨29, _⟩ => ⟨S1000000x1, .i1⟩
  | .hbm, ⟨30, _⟩ => ⟨S_, .i1⟩
  | .hbm, ⟨31, _⟩ => ⟨S1000000, .i1⟩
  | .hbm, ⟨32, _⟩ => ⟨S1000000x64, .f32⟩
  | .hbm, ⟨33, _⟩ => ⟨S1000000x64, .i1⟩
  | .hbm, ⟨34, _⟩ => ⟨S_, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S50000x64, .f32⟩
  | .hbm, ⟨39, _⟩ => ⟨S1000000x1, .i32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1, .i32⟩
  | .hbm, ⟨52, _⟩ => ⟨S_, .i32⟩
  | .hbm, ⟨53, _⟩ => ⟨S1000000x1, .i32⟩
  | .hbm, ⟨54, _⟩ => ⟨S1000000x1, .i1⟩
  | .hbm, ⟨55, _⟩ => ⟨S1x1, .i32⟩
  | .hbm, ⟨56, _⟩ => ⟨S1000000x1, .i32⟩
  | .hbm, ⟨57, _⟩ => ⟨S1000000x1, .i1⟩
  | .hbm, ⟨58, _⟩ => ⟨S1000000x1, .i1⟩
  | .hbm, ⟨59, _⟩ => ⟨S_, .i1⟩
  | .hbm, ⟨60, _⟩ => ⟨S1000000, .i1⟩
  | .hbm, ⟨61, _⟩ => ⟨S1000000x64, .f32⟩
  | .hbm, ⟨62, _⟩ => ⟨S1000000x64, .i1⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S_, .f32⟩
  | .hbm, ⟨67, _⟩ => ⟨S50000x64, .f32⟩
  | .hbm, ⟨68, _⟩ => ⟨S1000000x1, .i32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1, .i32⟩
  | .hbm, ⟨81, _⟩ => ⟨S_, .i32⟩
  | .hbm, ⟨82, _⟩ => ⟨S1000000x1, .i32⟩
  | .hbm, ⟨83, _⟩ => ⟨S1000000x1, .i1⟩
  | .hbm, ⟨84, _⟩ => ⟨S1x1, .i32⟩
  | .hbm, ⟨85, _⟩ => ⟨S1000000x1, .i32⟩
  | .hbm, ⟨86, _⟩ => ⟨S1000000x1, .i1⟩
  | .hbm, ⟨87, _⟩ => ⟨S1000000x1, .i1⟩
  | .hbm, ⟨88, _⟩ => ⟨S_, .i1⟩
  | .hbm, ⟨89, _⟩ => ⟨S1000000, .i1⟩
  | .hbm, ⟨90, _⟩ => ⟨S1000000x64, .f32⟩
  | .hbm, ⟨91, _⟩ => ⟨S1000000x64, .i1⟩
  | .hbm, ⟨92, _⟩ => ⟨S_, .f32⟩
  | .hbm, ⟨93, _⟩ => ⟨S1000000x64, .f32⟩
  | .hbm, ⟨94, _⟩ => ⟨S1000000x64, .f32⟩
  | .hbm, ⟨95, _⟩ => ⟨S_, .f32⟩
  | .hbm, ⟨96, _⟩ => ⟨S50000x64, .f32⟩
  | .hbm, ⟨97, _⟩ => ⟨S1000000x1, .i32⟩
  | .hbm, ⟨98, _⟩ => ⟨S50000x64, .f32⟩
  | .hbm, ⟨99, _⟩ => ⟨S50000x64, .f32⟩
  | .hbm, ⟨100, _⟩ => ⟨S_, .f32⟩
  | .hbm, ⟨101, _⟩ => ⟨S256x64, .f32⟩
  | .hbm, ⟨102, _⟩ => ⟨S50000x1, .i32⟩
  | .hbm, ⟨103, _⟩ => ⟨S256x64, .f32⟩
  | .hbm, ⟨104, _⟩ => ⟨S_, .f32⟩
  | .hbm, ⟨105, _⟩ => ⟨S256x64, .f32⟩
  | .hbm, ⟨106, _⟩ => ⟨S50000x1, .i32⟩
  | .hbm, ⟨107, _⟩ => ⟨S256x64, .f32⟩
  | .hbm, ⟨108, _⟩ => ⟨S_, .f32⟩
  | .hbm, ⟨109, _⟩ => ⟨S256x64, .f32⟩
  | .hbm, ⟨110, _⟩ => ⟨S50000x1, .i32⟩
  | .hbm, ⟨111, _⟩ => ⟨S256x64, .f32⟩
  | .hbm, ⟨112, _⟩ => ⟨S256x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S256x64, .f32⟩
  | .local _ .vmem, ⟨28, _⟩ => ⟨S256x64, .f32⟩
  | .local _ .vmem, ⟨29, _⟩ => ⟨S256x64, .f32⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v11 : Ref sig .tc := ⟨.hbm, 65, rfl⟩
abbrev main_cst_0 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v17 : Ref sig .tc := ⟨.hbm, 94, rfl⟩
abbrev main_cst_1 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_cst_2 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_cst_3 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_cst_4 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc6_stg0_0 : Ref sig .tc := ⟨.vmem, 27, rfl⟩
abbrev cc6_stg1_0 : Ref sig .tc := ⟨.vmem, 28, rfl⟩
abbrev cc6_stg2_0 : Ref sig .tc := ⟨.vmem, 29, rfl⟩
abbrev cc6_stg3_0 : Ref sig .tc := ⟨.vmem, 30, rfl⟩
abbrev cc6_stg4_0 : Ref sig .tc := ⟨.vmem, 31, rfl⟩
abbrev cc6_stg5_0 : Ref sig .tc := ⟨.vmem, 32, rfl⟩
abbrev cc6_stg6_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26
abbrev cc6_sem0_0 : DmaSem sig := 27
abbrev cc6_sem1_0 : DmaSem sig := 28
abbrev cc6_sem2_0 : DmaSem sig := 29
abbrev cc6_sem3_0 : DmaSem sig := 30
abbrev cc6_sem4_0 : DmaSem sig := 31
abbrev cc6_sem5_0 : DmaSem sig := 32
abbrev cc6_sem6_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S50000x64 : S_.BroadcastsInDim S50000x64 (![] : Fin 0 → Fin S50000x64.rank)
  shapeCasts_S5000x64_S5000x64 : S5000x64.ShapeCasts S5000x64
  bcast_S_S256x64 : S_.BroadcastsInDim S256x64 (![] : Fin 0 → Fin S256x64.rank)
  bcast_S50000_S50000x1_0 : S50000.BroadcastsInDim S50000x1 (![0] : Fin 1 → Fin S50000x1.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  dot_S5000x64_S64x64_S5000x64_1_0_0_1_n_n_wf : DotDims.WF S5000x64 S64x64 S5000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x64.size a ≤ S256x64.size a
  hwx6_1 : ∀ i : grid6.Coords, EltTy.bits .f32 = 32 ∨ (Rect.block (s := S256x64) S256x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x64.size a ≤ S256x64.size a
  hwx6_2 : ∀ i : grid6.Coords, EltTy.bits .f32 = 32 ∨ (Rect.block (s := S256x64) S256x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x64.size a ≤ S256x64.size a
  hwx6_6 : ∀ i : grid6.Coords, EltTy.bits .f32 = 32 ∨ (Rect.block (s := S256x64) S256x64.size (cc6_transform_6 i) (hinb6_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v9) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v14) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v15) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v20) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S5000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v24) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v27) S256x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v30) S256x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg6) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg7) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg8) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v31) S256x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S50000 : Shape := ⟨1, ![50000]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S256x64 : Shape := ⟨2, ![256, 64]⟩
abbrev S50000x1 : Shape := ⟨2, ![50000, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S50000, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S50000x64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .f32⟩
  | .hbm, ⟨24, _⟩ => ⟨S50000x64, .f32⟩
  | .hbm, ⟨25, _⟩ => ⟨S1000000x1, .i32⟩
  | .hbm, ⟨26, _⟩ => ⟨S50000x64, .f32⟩
  | .hbm, ⟨27, _⟩ => ⟨S_, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x64, .f32⟩
  | .hbm, ⟨40, _⟩ => ⟨S_, .f32⟩
  | .hbm, ⟨41, _⟩ => ⟨S50000x64, .f32⟩
  | .hbm, ⟨42, _⟩ => ⟨S1000000x1, .i32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S50000x64, .f32⟩
  | .hbm, ⟨59, _⟩ => ⟨S1000000x1, .i32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S256x64, .f32⟩
  | .hbm, ⟨66, _⟩ => ⟨S50000x1, .i32⟩
  | .hbm, ⟨67, _⟩ => ⟨S256x64, .f32⟩
  | .hbm, ⟨68, _⟩ => ⟨S256x64, .f32⟩
  | .hbm, ⟨69, _⟩ => ⟨S_, .f32⟩
  | .hbm, ⟨70, _⟩ => ⟨S256x64, .f32⟩
  | .hbm, ⟨71, _⟩ => ⟨S50000x1, .i32⟩
  | .hbm, ⟨72, _⟩ => ⟨S256x64, .f32⟩
  | .hbm, ⟨73, _⟩ => ⟨S256x64, .f32⟩
  | .hbm, ⟨74, _⟩ => ⟨S_, .f32⟩
  | .hbm, ⟨75, _⟩ => ⟨S256x64, .f32⟩
  | .hbm, ⟨76, _⟩ => ⟨S50000x1, .i32⟩
  | .hbm, ⟨77, _⟩ => ⟨S256x64, .f32⟩
  | .hbm, ⟨78, _⟩ => ⟨S256x64, .f32⟩
  | .hbm, ⟨79, _⟩ => ⟨S256x64, .f32⟩
  | .hbm, ⟨80, _⟩ => ⟨S256x64, .f32⟩
  | .hbm, ⟨81, _⟩ => ⟨S_, .f32⟩
  | .hbm, ⟨82, _⟩ => ⟨S256x64, .f32⟩
  | .hbm, ⟨83, _⟩ => ⟨S256x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_cst : Ref sig .tc := ⟨.hbm, 61, rfl⟩
abbrev main_call2_v0 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call3_cst : Ref sig .tc := ⟨.hbm, 81, rfl⟩
abbrev main_call3_v0 : Ref sig .tc := ⟨.hbm, 82, rfl⟩
abbrev main_v54 : Ref sig .tc := ⟨.hbm, 83, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

class Facts : Prop extends Facts₀ where

variable [Facts]
-- ==== Proof.Spec.lean ====
/-
  The network both programs compute, stated once over the extended reals.

  A graph-convolution layer sends node features x (one row of 64 numbers per node) to
  relu(A (x W)): the rows of x W are gathered along the edges' source nodes and added into the rows of the edges'
  destination nodes (A is the sum over edges; an edge whose destination is out of range adds nothing, by the
  meaning of the scatter).  Three layers give x1, x2, x3.  Each is pooled per graph (the rows of the nodes of a graph
  are added), multiplied by its own 64 x 64 matrix, the three products are added and the positive part is taken.

  Written here: the matrix product entry by entry (a sum of 64 products), the positive part entry by entry, and the
  whole network as one function of the nine inputs.  The gather and the two scatters enter through their dimension
  records, which both printed programs state; the network is parametric in them.
-/
import Idealize.ShloMosaic.PureOps.Ideal
import Idealize.ShloMosaic.Lib.ValueIdx

noncomputable section

open scoped BigOperators

namespace Cert.Gcn

open Idealize.ShloMosaic Idealize.ShloMosaic.ValueIdx

/-- Node features, per-edge rows, per-graph rows, weights; index columns for the edges and for the nodes. -/
abbrev SN : Shape := ⟨2, ![50000, 64]⟩
abbrev SE : Shape := ⟨2, ![1000000, 64]⟩
abbrev SG : Shape := ⟨2, ![256, 64]⟩
abbrev SW : Shape := ⟨2, ![64, 64]⟩
abbrev SEI : Shape := ⟨2, ![1000000, 1]⟩
abbrev SNI : Shape := ⟨2, ![50000, 1]⟩

/-- The product of an [n, 64] matrix with a [64, 64] matrix: entry (r, q) is the sum over k of X(r, k) · W(k, q). -/
def mm {n : Nat} (X : FVec Ideal ⟨2, ![n, 64]⟩ .f32) (W : FVec Ideal SW .f32) : FVec Ideal ⟨2, ![n, 64]⟩ .f32 :=
  fun i => ∑ k : Fin 64, X (ix2 (i 0) k) * W (ix2 k (i 1))

/-- The positive part, entry by entry. -/
def relu {s : Shape} (X : FVec Ideal s .f32) : FVec Ideal s .f32 := fun i => max (X i) 0

/-- One layer: the rows of x W gathered at the (wrapped) source nodes, added into zero at the destination nodes,
    positive part. -/
def layer (gd : GatherDims SN SEI SE) (sd : ScatterDims SN SEI SE) (zeroN : FVec Ideal SN .f32) (srcI dstI : IVec SEI 32)
    (x : FVec Ideal SN .f32) (w : FVec Ideal SW .f32) : FVec Ideal SN .f32 :=
  relu (Host.scatterAdd sd zeroN dstI (Host.gather gd (mm x w) srcI))

/-- Pooling: node rows added into zero at their graph's row. -/
def pool (pd : ScatterDims SG SNI SN) (zeroG : FVec Ideal SG .f32) (batchI : IVec SNI 32) (x : FVec Ideal SN .f32) :
    FVec Ideal SG .f32 :=
  Host.scatterAdd pd zeroG batchI x

/-- The whole network. -/
def net (gd : GatherDims SN SEI SE) (sd : ScatterDims SN SEI SE) (pd : ScatterDims SG SNI SN)
    (zeroN : FVec Ideal SN .f32) (zeroG : FVec Ideal SG .f32) (srcI dstI : IVec SEI 32) (batchI : IVec SNI 32)
    (x : FVec Ideal SN .f32) (w1 w2 w3 p1 p2 p3 : FVec Ideal SW .f32) : FVec Ideal SG .f32 :=
  relu (addf (addf (mm (pool pd zeroG batchI (layer gd sd zeroN srcI dstI x w1)) p1)
      (mm (pool pd zeroG batchI (layer gd sd zeroN srcI dstI (layer gd sd zeroN srcI dstI x w1) w2)) p2))
    (mm (pool pd zeroG batchI (layer gd sd zeroN srcI dstI (layer gd sd zeroN srcI dstI (layer gd sd zeroN srcI dstI x w1) w2) w3)) p3))

end Cert.Gcn

end
-- ==== Proof.RefValue.lean ====
/-
  The reference's result is the network of Spec.lean at the reference's own dimension records: its matrix products are
  the entry-by-entry sums, its maxima against the zero array are positive parts, and the gathers and scatters stand
  as they are printed.
-/
import proofs.«400816_j84945863180634_1_alg».proof.Proof.Gen.ReferenceIdeal.Read
import proofs.«400816_j84945863180634_1_alg».proof.Proof.Spec
import Idealize.ShloMosaic.Lib.ValueIdx
import Idealize.ShloMosaic.PureOps.Ideal.Laws

set_option maxRecDepth 16384

noncomputable section

open scoped BigOperators

namespace Cert.ReferenceIdeal.Gcn

open Idealize.ShloMosaic Idealize.ShloMosaic.TcCoe Idealize.ShloMosaic.ValueIdx Idealize.SL.Sem Idealize.ShloMosaic.StableHlo
open Cert.ReferenceIdeal Cert.ReferenceIdeal.Facts₀ Cert.ReferenceIdeal.Facts

/-- The source row of the edge list, as a vector of 1000000 node indices. -/
def srcOf (ei : IVec S2x1000000 32) : IVec S1000000 32 :=
  shapeCast S1000000 (extractStridedSlice S1x1000000 ![0, 0] ei slices_S2x1000000_S1x1000000_0_0) shapeCasts_S1x1000000_S1000000

/-- The destination row of the edge list. -/
def dstOf (ei : IVec S2x1000000 32) : IVec S1000000 32 :=
  shapeCast S1000000 (extractStridedSlice S1x1000000 ![1, 0] ei slices_S2x1000000_S1x1000000_1_0) shapeCasts_S1x1000000_S1000000

/-- Node indices with the negative ones counted from the end (index + 50000), laid out as a column. -/
def wrapIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 50000#32))) src)

/-- The all-zero arrays the scatters add into and the maxima are taken against. -/
def zeroN : FVec Ideal S50000x64 .f32 := broadcastInDim S50000x64 ![] bcast_S_S50000x64 (constant S_ .f32 0x00000000#32)
def zeroG : FVec Ideal S256x64 .f32 := broadcastInDim S256x64 ![] bcast_S_S256x64 (constant S_ .f32 0x00000000#32)

/-- The host's product of a [50000, 64] by a [64, 64] matrix is the sum of 64 products, entry by entry. -/
theorem dotN_eq_mm (x : FVec Ideal S50000x64 .f32) (w : FVec Ideal S64x64 .f32) :
    Host.dotGeneral dot_S50000x64_S64x64_S50000x64_1_0_0_1_n_n none x w = Cert.Gcn.mm x w := by
  funext i
  refine (Read.val_main_v4_apply x w i).trans ?_
  refine Finset.sum_congr rfl fun k _ => ?_
  have el : Read.lidx_main_v4 i k = ix2 (i 0) k := funext fun a => by
    match a with
    | ⟨0, _⟩ => rfl
    | ⟨1, _⟩ => rfl
  have er : Read.ridx_main_v4 i k = ix2 k (i 1) := funext fun a => by
    match a with
    | ⟨0, _⟩ => rfl
    | ⟨1, _⟩ => rfl
  rw [el, er]
  rfl

/-- The same for a [256, 64] by a [64, 64] matrix: the contraction's one axis is re-indexed by its coordinate. -/
theorem dotG_eq_mm (x : FVec Ideal S256x64 .f32) (w : FVec Ideal S64x64 .f32) :
    Host.dotGeneral dot_S256x64_S64x64_S256x64_1_0_0_1_n_n none x w = Cert.Gcn.mm x w := by
  funext i
  simp only [Host.dotGeneral]
  rw [Ideal.dotGeneral_apply, ← Equiv.sum_comp (ValueIdx.contrEquiv1 dot_S256x64_S64x64_S256x64_1_0_0_1_n_n 64 rfl rfl).symm]
  refine Finset.sum_congr rfl fun k _ => ?_
  have hk := ValueIdx.contrEquiv1_symm_val dot_S256x64_S64x64_S256x64_1_0_0_1_n_n 64 rfl rfl k
  have el : dot_S256x64_S64x64_S256x64_1_0_0_1_n_n.lhsIdx i ((ValueIdx.contrEquiv1 dot_S256x64_S64x64_S256x64_1_0_0_1_n_n 64 rfl rfl).symm k) = ix2 (i 0) k := funext fun a => Fin.ext (by
    match a with
    | ⟨0, _⟩ => exact Read.lhs_main_v43_0 _ _
    | ⟨1, _⟩ => exact (Read.lhs_main_v43_1 _ _).trans hk)
  have er : dot_S256x64_S64x64_S256x64_1_0_0_1_n_n.rhsIdx i ((ValueIdx.contrEquiv1 dot_S256x64_S64x64_S256x64_1_0_0_1_n_n 64 rfl rfl).symm k) = ix2 k (i 1) := funext fun a => Fin.ext (by
    match a with
    | ⟨0, _⟩ => exact (Read.rhs_main_v43_0 _ _).trans hk
    | ⟨1, _⟩ => exact Read.rhs_main_v43_1 _ _)
  rw [el, er]
  rfl

/-- The maximum with the all-zero array is the positive part. -/
theorem maxN_eq_relu (x : FVec Ideal S50000x64 .f32) : maximumf x zeroN = Cert.Gcn.relu x := by
  funext i
  show max (x i) (Ideal.ofBits .f32 0x00000000#32) = max (x i) 0
  rw [Ideal.ofBits_zero_f32]

theorem maxG_eq_relu (x : FVec Ideal S256x64 .f32) : maximumf x zeroG = Cert.Gcn.relu x := by
  funext i
  show max (x i) (Ideal.ofBits .f32 0x00000000#32) = max (x i) 0
  rw [Ideal.ofBits_zero_f32]

/-- One layer as the reference prints it. -/
def layerRaw (srcI dstI : IVec S1000000x1 32) (x : FVec Ideal S50000x64 .f32) (w : FVec Ideal S64x64 .f32) : FVec Ideal S50000x64 .f32 :=
  maximumf (Host.scatterAdd scatter_S50000x64_S1000000x1_S1000000x64_1_0_0_1 zeroN dstI
    (Host.gather gather_S50000x64_S1000000x1_S1000000x64_1_0_n_n_0_1_164 (Host.dotGeneral dot_S50000x64_S64x64_S50000x64_1_0_0_1_n_n none x w) srcI)) zeroN

theorem layerRaw_eq (srcI dstI : IVec S1000000x1 32) (x : FVec Ideal S50000x64 .f32) (w : FVec Ideal S64x64 .f32) :
    layerRaw srcI dstI x w = Cert.Gcn.layer gather_S50000x64_S1000000x1_S1000000x64_1_0_n_n_0_1_164
      scatter_S50000x64_S1000000x1_S1000000x64_1_0_0_1 zeroN srcI dstI x w := by
  unfold layerRaw Cert.Gcn.layer
  rw [dotN_eq_mm, maxN_eq_relu]

/-- A pooled layer output times its matrix, as the reference prints it. -/
def headRaw (bI : IVec S50000x1 32) (x : FVec Ideal S50000x64 .f32) (p : FVec Ideal S64x64 .f32) : FVec Ideal S256x64 .f32 :=
  Host.dotGeneral dot_S256x64_S64x64_S256x64_1_0_0_1_n_n none (Host.scatterAdd scatter_S256x64_S50000x1_S50000x64_1_0_0_1 zeroG bI x) p

theorem headRaw_eq (bI : IVec S50000x1 32) (x : FVec Ideal S50000x64 .f32) (p : FVec Ideal S64x64 .f32) :
    headRaw bI x p = Cert.Gcn.mm (Cert.Gcn.pool scatter_S256x64_S50000x1_S50000x64_1_0_0_1 zeroG bI x) p := by
  unfold headRaw Cert.Gcn.pool
  rw [dotG_eq_mm]

/-- The whole reference as it prints. -/
def netRaw (srcI dstI : IVec S1000000x1 32) (bI : IVec S50000x1 32) (x : FVec Ideal S50000x64 .f32)
    (w1 w2 w3 p1 p2 p3 : FVec Ideal S64x64 .f32) : FVec Ideal S256x64 .f32 :=
  maximumf (addf (addf (headRaw bI (layerRaw srcI dstI x w1) p1)
      (headRaw bI (layerRaw srcI dstI (layerRaw srcI dstI x w1) w2) p2))
    (headRaw bI (layerRaw srcI dstI (layerRaw srcI dstI (layerRaw srcI dstI x w1) w2) w3) p3)) zeroG

theorem netRaw_eq (srcI dstI : IVec S1000000x1 32) (bI : IVec S50000x1 32) (x : FVec Ideal S50000x64 .f32)
    (w1 w2 w3 p1 p2 p3 : FVec Ideal S64x64 .f32) :
    netRaw srcI dstI bI x w1 w2 w3 p1 p2 p3
      = Cert.Gcn.net gather_S50000x64_S1000000x1_S1000000x64_1_0_n_n_0_1_164
          scatter_S50000x64_S1000000x1_S1000000x64_1_0_0_1 scatter_S256x64_S50000x1_S50000x64_1_0_0_1
          zeroN zeroG srcI dstI bI x w1 w2 w3 p1 p2 p3 := by
  unfold netRaw Cert.Gcn.net
  rw [maxG_eq_relu]
  simp only [headRaw_eq, layerRaw_eq]

set_option maxRecDepth 200000 in
set_option maxHeartbeats 4000000 in
/-- The run's result term is that printed composition. -/
theorem res_eq_netRaw (m : (ℓ : Loc nD τ sig) → Buf (Elt Ideal) ℓ) (c : Dev nD) :
    Value.res_main_v54 (F := Ideal) m c
      = netRaw (wrapIdx (srcOf (m ((c.tc : Thread nD τ).loc main_arg1))))
          (broadcastInDim S1000000x1 ![0] bcast_S1000000_S1000000x1_0 (dstOf (m ((c.tc : Thread nD τ).loc main_arg1))))
          (broadcastInDim S50000x1 ![0] bcast_S50000_S50000x1_0 (m ((c.tc : Thread nD τ).loc main_arg2)))
          (m ((c.tc : Thread nD τ).loc main_arg0))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  rfl

/-- The reference's result array is the network of its nine arguments. -/
theorem ref_value (m : (ℓ : Loc nD τ sig) → Buf (Elt Ideal) ℓ) (c : Dev nD) :
    Value.res_main_v54 (F := Ideal) m c
      = Cert.Gcn.net gather_S50000x64_S1000000x1_S1000000x64_1_0_n_n_0_1_164
          scatter_S50000x64_S1000000x1_S1000000x64_1_0_0_1 scatter_S256x64_S50000x1_S50000x64_1_0_0_1
          zeroN zeroG
          (wrapIdx (srcOf (m ((c.tc : Thread nD τ).loc main_arg1))))
          (broadcastInDim S1000000x1 ![0] bcast_S1000000_S1000000x1_0 (dstOf (m ((c.tc : Thread nD τ).loc main_arg1))))
          (broadcastInDim S50000x1 ![0] bcast_S50000_S50000x1_0 (m ((c.tc : Thread nD τ).loc main_arg2)))
          (m ((c.tc : Thread nD τ).loc main_arg0))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  (res_eq_netRaw m c).trans (netRaw_eq _ _ _ _ _ _ _ _ _ _)

end Cert.ReferenceIdeal.Gcn

end
-- ==== Proof.Take.lean ====
/-
  Reading rows of a table at node indices the way the kernel's host code does it: an index below zero is first counted
  from the end; a row whose index is then still outside the table is filled with a fixed word instead of being read.
  When every index is a node number (0 ≤ index < 50000) no row is filled and the result is the plain gather of the rows.
-/
import proofs.«400816_j84945863180634_1_alg».proof.Proof.Gen.KernelIdeal
import Idealize.ShloMosaic.Lib.ValueIdx
import Idealize.ShloMosaic.Lib.StableHlo.Predicate
import Idealize.ShloMosaic.Lib.ReduceAll

set_option maxRecDepth 16384

noncomputable section

open scoped BigOperators

namespace Cert.KernelIdeal.Gcn

open Idealize.ShloMosaic Idealize.ShloMosaic.TcCoe Idealize.ShloMosaic.ValueIdx Idealize.SL.Sem
open Cert.KernelIdeal Cert.KernelIdeal.Facts₀ Cert.KernelIdeal.Facts

/-- The source row of the edge list, as a vector of 1000000 node indices. -/
def srcOf (ei : IVec S2x1000000 32) : IVec S1000000 32 :=
  shapeCast S1000000 (extractStridedSlice S1x1000000 ![0, 0] ei slices_S2x1000000_S1x1000000_0_0) shapeCasts_S1x1000000_S1000000

/-- The destination row of the edge list. -/
def dstOf (ei : IVec S2x1000000 32) : IVec S1000000 32 :=
  shapeCast S1000000 (extractStridedSlice S1x1000000 ![1, 0] ei slices_S2x1000000_S1x1000000_1_0) shapeCasts_S1x1000000_S1000000

/-- Node indices with the negative ones counted from the end (index + 50000), laid out as a column. -/
def wrapIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 50000#32))) src)

/-- The rows of `h` at the wrapped indices, a row whose wrapped index is outside 0 … 49999 replaced by a fixed word. -/
def takeK (h : FVec Ideal S50000x64 .f32) (src : IVec S1000000 32) : FVec Ideal S1000000x64 .f32 :=
  select (broadcastInDim S1000000x64 ![0] bcast_S1000000_S1000000x64_0
      (Host.reduce IntOp.andi
        (andi (cmpi .sge (wrapIdx src) (broadcastInDim S1000000x1 ![] bcast_S_S1000000x1 (constantI S_ 32 0#32)))
              (cmpi .sle (wrapIdx src) (broadcastInDim S1000000x1 ![0, 1] bcast_S1x1_S1000000x1_0_1
                (broadcastInDim S1x1 ![1] bcast_S1_S1x1_1 (constantI S1 32 49999#32)))))
        (constantI S_ 1 1#1) reducesTo_S1000000x1_S1000000_d1 h_S_))
    (Host.gather gather_S50000x64_S1000000x1_S1000000x64_1_0_n_n_0_1_164 h (wrapIdx src))
    (broadcastInDim S1000000x64 ![] bcast_S_S1000000x64 (constant S_ .f32 0x7FC00000#32))

/-- A left fold by `and` over one-bit words, started at 1 and meeting only 1s, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A node number is not negative, so counting from the end leaves it alone. -/
theorem wrap_eq (src : IVec S1000000 32) (hsrc : ∀ e : S1000000.Idx, 0 ≤ (src e).toInt ∧ (src e).toInt < 50000)
    (e : S1000000.Idx) :
    select (cmpi .slt src (broadcastInDim S1000000 ![] bcast_S_S1000000 (constantI S_ 32 0#32)))
      (addi src (broadcastInDim S1000000 ![] bcast_S_S1000000 (constantI S_ 32 50000#32))) src e = src e := by
  show Scalar.select (IntOp.cmpi .slt (src e) 0#32) _ (src e) = src e
  have hc : IntOp.cmpi .slt (src e) 0#32 = 0#1 := by
    refine eq_zero_of_ne_one fun h1 => ?_
    rw [IntOp.cmpi_slt, show (0#32 : BitVec 32).toInt = 0 from by decide] at h1
    have := (hsrc e).1
    omega
  rw [hc]
  exact select_zero _ _

/-- Every entry of the wrapped column is one of the given node numbers. -/
theorem wrapIdx_val (src : IVec S1000000 32) (hsrc : ∀ e : S1000000.Idx, 0 ≤ (src e).toInt ∧ (src e).toInt < 50000)
    (k : S1000000x1.Idx) : ∃ e : S1000000.Idx, wrapIdx src k = src e :=
  ⟨_, wrap_eq src hsrc _⟩

/-- With every index a node number, the in-range test holds on every row. -/
theorem mask_one (src : IVec S1000000 32) (hsrc : ∀ e : S1000000.Idx, 0 ≤ (src e).toInt ∧ (src e).toInt < 50000)
    (j : S1000000.Idx) :
    Host.reduce IntOp.andi
        (andi (cmpi .sge (wrapIdx src) (broadcastInDim S1000000x1 ![] bcast_S_S1000000x1 (constantI S_ 32 0#32)))
              (cmpi .sle (wrapIdx src) (broadcastInDim S1000000x1 ![0, 1] bcast_S1x1_S1000000x1_0_1
                (broadcastInDim S1x1 ![1] bcast_S1_S1x1_1 (constantI S1 32 49999#32)))))
        (constantI S_ 1 1#1) reducesTo_S1000000x1_S1000000_d1 h_S_ j = 1#1 := by
  rw [Host.reduce_eq_foldl]
  refine foldl_andi_one _ (fun k => ?_) _
  show IntOp.andi (IntOp.cmpi .sge (wrapIdx src k) 0#32) (IntOp.cmpi .sle (wrapIdx src k) 49999#32) = 1#1
  obtain ⟨e, he⟩ := wrapIdx_val src hsrc k
  rw [he, IntOp.andi_eq_one, IntOp.cmpi_sge, IntOp.cmpi_sle, show (0#32 : BitVec 32).toInt = 0 from by decide,
    show (49999#32 : BitVec 32).toInt = 49999 from by decide]
  have := hsrc e
  omega

/-- With every index a node number, nothing is filled: the result is the gather. -/
theorem takeK_eq (h : FVec Ideal S50000x64 .f32) (src : IVec S1000000 32)
    (hsrc : ∀ e : S1000000.Idx, 0 ≤ (src e).toInt ∧ (src e).toInt < 50000) :
    takeK h src = Host.gather gather_S50000x64_S1000000x1_S1000000x64_1_0_n_n_0_1_164 h (wrapIdx src) := by
  have hb : ∀ m : IVec S1000000 1, (∀ j, m j = 1#1) →
      ∀ i, broadcastInDim S1000000x64 ![0] bcast_S1000000_S1000000x64_0 m i = 1#1 := fun m hm i => hm _
  funext i
  unfold takeK
  rw [select_apply, hb _ (mask_one src hsrc) i]
  exact select_one _ _

end Cert.KernelIdeal.Gcn

end
-- ==== Proof.PreDecode.lean ====
/-
  What the precondition says about the edge list: every source index is a node number.
-/
import proofs.«400816_j84945863180634_1_alg».proof.Proof.Take
import proofs.«400816_j84945863180634_1_alg».proof.Proof.Gen.Pre_finite_inputs
import proofs.«400816_j84945863180634_1_alg».proof.Defs
import Idealize.ShloMosaic.Lib.ValueIdx
import Idealize.ShloMosaic.Lib.StableHlo.Predicate
import Idealize.ShloMosaic.Lib.ReduceAll

set_option maxRecDepth 16384

noncomputable section

open scoped BigOperators

namespace Cert.KernelIdeal.Gcn

open Idealize.ShloMosaic Idealize.ShloMosaic.TcCoe Idealize.ShloMosaic.ValueIdx Idealize.SL.Sem
open Cert.KernelIdeal Cert.KernelIdeal.Facts₀ Cert.KernelIdeal.Facts

/-- The shape of a scalar has one index. -/
instance subsingleton_scalarIdx : Subsingleton Cert.Pre_finite_inputs.S_.Idx :=
  ⟨fun a b => funext fun d => d.elim0⟩

/-- A 32-bit word that compares signed-at-least 0 and signed-below 50000 has its signed reading in 0 … 49999. -/
theorem toInt_range_of_cmpi (w : BitVec 32) (h0 : IntOp.cmpi .sge w (0#32) = 1#1)
    (h1 : IntOp.cmpi .slt w (50000#32) = 1#1) : 0 ≤ w.toInt ∧ w.toInt < 50000 := by
  rw [IntOp.cmpi_sge] at h0
  rw [IntOp.cmpi_slt] at h1
  have z : (0#32 : BitVec 32).toInt = 0 := by decide
  have k : (50000#32 : BitVec 32).toInt = 50000 := by decide
  rw [z] at h0
  rw [k] at h1
  exact ⟨h0, h1⟩

/-- Under the precondition every entry of the edge list's source row lies in 0 … 49999. -/
theorem src_in_range (m : (ℓ : Loc nD τ sig) → Buf (Elt Ideal) ℓ) (hpre : Cert.Pre_KernelIdeal m) (c : Dev nD)
    (e : S1000000.Idx) :
    0 ≤ ((srcOf (m ((c.tc : Thread nD τ).loc main_arg1))) e).toInt
      ∧ ((srcOf (m ((c.tc : Thread nD τ).loc main_arg1))) e).toInt < 50000 := by
  have h := congrFun (hpre c) ValueIdx.ix0
  dsimp only [Cert.Pre_finite_inputs.fn, Cert.Pre_finite_inputs.fn_part1, Cert.Pre_finite_inputs.fn_part2] at h
  -- the last conjunction: everything before, and the all-entries test of the source row
  have hall := (IntOp.andi_eq_one.1 h).2
  have hent := Host.reduce_andi_all _ _ _ _ _ hall e
  obtain ⟨hge, hlt⟩ := IntOp.andi_eq_one.1 hent
  -- a scalar spread over the vector reads the scalar at every entry
  have b0 : broadcastInDim Cert.Pre_finite_inputs.S1000000 ![] Cert.Pre_finite_inputs.Facts.bcast_S_S1000000
      (constantI Cert.Pre_finite_inputs.S_ 32 0#32) e = 0#32 :=
    StableHlo.Predicate.bcast_scalar _ Cert.Pre_finite_inputs.Facts.h_S_ _ e
  have b1 : broadcastInDim Cert.Pre_finite_inputs.S1000000 ![] Cert.Pre_finite_inputs.Facts.bcast_S_S1000000
      (constantI Cert.Pre_finite_inputs.S_ 32 50000#32) e = 50000#32 :=
    StableHlo.Predicate.bcast_scalar _ Cert.Pre_finite_inputs.Facts.h_S_ _ e
  have hge' : IntOp.cmpi .sge (srcOf (m ((c.tc : Thread nD τ).loc main_arg1)) e) (0#32) = 1#1 := by
    rw [← b0]; exact hge
  have hlt' : IntOp.cmpi .slt (srcOf (m ((c.tc : Thread nD τ).loc main_arg1)) e) (50000#32) = 1#1 := by
    rw [← b1]; exact hlt
  exact toInt_range_of_cmpi _ hge' hlt'

end Cert.KernelIdeal.Gcn

end
-- ==== Proof.KDefs.lean ====
/-
  Short names for the constant arrays and index columns the kernel's host code builds around its gathers and scatters.
-/
import proofs.«400816_j84945863180634_1_alg».proof.Proof.Take

set_option maxRecDepth 16384

noncomputable section

open scoped BigOperators

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Facts₀ Cert.KernelIdeal.Facts

/-- The all-zero node array the edge sums are added into. -/
def zeroN : FVec Ideal S50000x64 .f32 := broadcastInDim S50000x64 ![] bcast_S_S50000x64 (constant S_ .f32 0x00000000#32)
/-- The all-zero per-graph array the node rows are added into. -/
def zeroG : FVec Ideal S256x64 .f32 := broadcastInDim S256x64 ![] bcast_S_S256x64 (constant S_ .f32 0x00000000#32)
/-- A vector of 1000000 node indices laid out as a column. -/
def colE (v : IVec S1000000 32) : IVec S1000000x1 32 := broadcastInDim S1000000x1 ![0] bcast_S1000000_S1000000x1_0 v
/-- A vector of 50000 graph indices laid out as a column. -/
def colN (v : IVec S50000 32) : IVec S50000x1 32 := broadcastInDim S50000x1 ![0] bcast_S50000_S50000x1_0 v

end Cert.KernelIdeal.Gcn

end
-- ==== Proof.Keep.lean ====
/-
  Buffers nothing writes in between keep their contents: each argument where a later stage reads it, the two index
  vectors cut from the edge list where each layer reads them, and the first two layers' outputs where the pooling
  reads them.
-/
import proofs.«400816_j84945863180634_1_alg».proof.Proof.Gen.KernelIdeal.Frame
import Idealize.ShloMosaic.Lib.StableHlo.Run
import Idealize.ShloMosaic.Lib.ValueIdx

set_option maxRecDepth 16384

noncomputable section

open scoped BigOperators

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Facts₀ Cert.KernelIdeal.Facts

variable (m : (ℓ : Loc nD τ sig) → Buf (Elt Ideal) ℓ) (ρ : Dev nD → PrngReg)

/-- The references each stretch of host operations writes: every operation of the stretch writes one of them. -/
private abbrev hostW0 : List (Ref sig .tc) := [main_v0, main_v1, main_v2, main_v3]
private theorem hostW0_writes : (Gen.hostOps0 : List (HloOp τ sig (Elt Ideal))).Forall fun op => op.writes ⊆ (hostW0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
private theorem hostW1_writes : (Gen.hostOps1 : List (HloOp τ sig (Elt Ideal))).Forall fun op => op.writes ⊆ (hostW1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW1_1 : List (Ref sig .tc) := [main_cst, main_v6, main_v7, main_v8]
private theorem hostW1_1_writes : (Gen.hostOps1_1 : List (HloOp τ sig (Elt Ideal))).Forall fun op => op.writes ⊆ (hostW1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v11]
private theorem hostW3_writes : (Gen.hostOps3 : List (HloOp τ sig (Elt Ideal))).Forall fun op => op.writes ⊆ (hostW3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW3_1 : List (Ref sig .tc) := [main_cst_0, main_v12, main_v13, main_v14]
private theorem hostW3_1_writes : (Gen.hostOps3_1 : List (HloOp τ sig (Elt Ideal))).Forall fun op => op.writes ⊆ (hostW3_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v17]
private theorem hostW5_writes : (Gen.hostOps5 : List (HloOp τ sig (Elt Ideal))).Forall fun op => op.writes ⊆ (hostW5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW5_1 : List (Ref sig .tc) := [main_cst_1, main_v18, main_v19, main_v20]
private theorem hostW5_1_writes : (Gen.hostOps5_1 : List (HloOp τ sig (Elt Ideal))).Forall fun op => op.writes ⊆ (hostW5_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

private abbrev hostW6 : List (Ref sig .tc) := [main_cst_2, main_v22, main_v23, main_v24, main_cst_3, main_v25, main_v26, main_v27, main_cst_4, main_v28, main_v29, main_v30]
private theorem hostW6_writes : (Gen.hostOps6 : List (HloOp τ sig (Elt Ideal))).Forall fun op => op.writes ⊆ (hostW6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Across a stretch of host operations, a buffer the stretch does not write keeps its contents. -/
private theorem host0 (c : Dev nD) (r : Ref sig .tc) (h : r ∉ hostW0) :
    Gen.W1 (F := Ideal) m ρ c (Proc.devRef .tc r) = Gen.W0 (F := Ideal) m ρ c (Proc.devRef .tc r) :=
  StableHlo.after_of_writes_sub Gen.hostOps0 _ hostW0_writes h
private theorem host1 (c : Dev nD) (r : Ref sig .tc) (h : r ∉ hostW1) :
    Gen.W3 (F := Ideal) m ρ c (Proc.devRef .tc r) = Gen.W2 (F := Ideal) m ρ c (Proc.devRef .tc r) :=
  StableHlo.after_of_writes_sub Gen.hostOps1 _ hostW1_writes h
private theorem host1_1 (c : Dev nD) (r : Ref sig .tc) (h : r ∉ hostW1_1) :
    Gen.W4 (F := Ideal) m ρ c (Proc.devRef .tc r) = Gen.W3 (F := Ideal) m ρ c (Proc.devRef .tc r) :=
  StableHlo.after_of_writes_sub Gen.hostOps1_1 _ hostW1_1_writes h
private theorem host3 (c : Dev nD) (r : Ref sig .tc) (h : r ∉ hostW3) :
    Gen.W7 (F := Ideal) m ρ c (Proc.devRef .tc r) = Gen.W6 (F := Ideal) m ρ c (Proc.devRef .tc r) :=
  StableHlo.after_of_writes_sub Gen.hostOps3 _ hostW3_writes h
private theorem host3_1 (c : Dev nD) (r : Ref sig .tc) (h : r ∉ hostW3_1) :
    Gen.W8 (F := Ideal) m ρ c (Proc.devRef .tc r) = Gen.W7 (F := Ideal) m ρ c (Proc.devRef .tc r) :=
  StableHlo.after_of_writes_sub Gen.hostOps3_1 _ hostW3_1_writes h
private theorem host5 (c : Dev nD) (r : Ref sig .tc) (h : r ∉ hostW5) :
    Gen.W11 (F := Ideal) m ρ c (Proc.devRef .tc r) = Gen.W10 (F := Ideal) m ρ c (Proc.devRef .tc r) :=
  StableHlo.after_of_writes_sub Gen.hostOps5 _ hostW5_writes h
private theorem host5_1 (c : Dev nD) (r : Ref sig .tc) (h : r ∉ hostW5_1) :
    Gen.W12 (F := Ideal) m ρ c (Proc.devRef .tc r) = Gen.W11 (F := Ideal) m ρ c (Proc.devRef .tc r) :=
  StableHlo.after_of_writes_sub Gen.hostOps5_1 _ hostW5_1_writes h
private theorem host6 (c : Dev nD) (r : Ref sig .tc) (h : r ∉ hostW6) :
    Gen.W14 (F := Ideal) m ρ c (Proc.devRef .tc r) = Gen.W13 (F := Ideal) m ρ c (Proc.devRef .tc r) :=
  StableHlo.after_of_writes_sub Gen.hostOps6 _ hostW6_writes h

/-- From the first region's entry to the third's: a buffer that is no array of the first two regions and that the
    two stretches between them do not write. -/
private theorem span1_5 (c : Dev nD) (r : Ref sig .tc) (h0 : ∀ w, Pipeline.arrRef spec0 w ≠ r) (h1 : r ∉ hostW1)
    (h2 : r ∉ hostW1_1) (h3 : ∀ w, Pipeline.arrRef spec1 w ≠ r) :
    Gen.W5 (F := Ideal) m ρ c (Proc.devRef .tc r) = Gen.W1 (F := Ideal) m ρ c (Proc.devRef .tc r) :=
  (Gen.W5_of_ne m ρ c r h3).trans ((host1_1 m ρ c r h2).trans ((host1 m ρ c r h1).trans (Gen.W2_of_ne m ρ c r h0)))

/-- From the third region's exit to the fifth's entry. -/
private theorem span6_9 (c : Dev nD) (r : Ref sig .tc) (h1 : r ∉ hostW3) (h2 : r ∉ hostW3_1)
    (h3 : ∀ w, Pipeline.arrRef spec3 w ≠ r) :
    Gen.W9 (F := Ideal) m ρ c (Proc.devRef .tc r) = Gen.W6 (F := Ideal) m ρ c (Proc.devRef .tc r) :=
  (Gen.W9_of_ne m ρ c r h3).trans ((host3_1 m ρ c r h2).trans (host3 m ρ c r h1))

/-- From the fifth region's exit to the sixth's. -/
private theorem span10_13 (c : Dev nD) (r : Ref sig .tc) (h1 : r ∉ hostW5) (h2 : r ∉ hostW5_1)
    (h3 : ∀ w, Pipeline.arrRef spec5 w ≠ r) :
    Gen.W13 (F := Ideal) m ρ c (Proc.devRef .tc r) = Gen.W10 (F := Ideal) m ρ c (Proc.devRef .tc r) :=
  (Gen.W13_of_ne m ρ c r h3).trans ((host5_1 m ρ c r h2).trans (host5 m ρ c r h1))

/-- An argument no region has as an output and no stretch writes is, at the first region's entry, as launched. -/
private theorem launch1 (c : Dev nD) (r : Ref sig .tc) (h : r ∉ hostW0) :
    Gen.W1 (F := Ideal) m ρ c (Proc.devRef .tc r) = m ((c.tc : Thread nD τ).loc r) :=
  (host0 m ρ c r h).trans rfl

theorem keep_arg0_1 (c : Dev nD) : Gen.W1 (F := Ideal) m ρ c (Proc.devRef .tc main_arg0) = m ((c.tc : Thread nD τ).loc main_arg0) := by
  exact launch1 m ρ c main_arg0 (by decide)

theorem keep_arg3_1 (c : Dev nD) : Gen.W1 (F := Ideal) m ρ c (Proc.devRef .tc main_arg3) = m ((c.tc : Thread nD τ).loc main_arg3) := by
  exact launch1 m ρ c main_arg3 (by decide)

theorem keep_arg4_5 (c : Dev nD) : Gen.W5 (F := Ideal) m ρ c (Proc.devRef .tc main_arg4) = m ((c.tc : Thread nD τ).loc main_arg4) := by
  exact (span1_5 m ρ c main_arg4 (by decide) (by decide) (by decide) (by decide)).trans (launch1 m ρ c main_arg4 (by decide))

theorem keep_arg5_9 (c : Dev nD) : Gen.W9 (F := Ideal) m ρ c (Proc.devRef .tc main_arg5) = m ((c.tc : Thread nD τ).loc main_arg5) := by
  exact (span6_9 m ρ c main_arg5 (by decide) (by decide) (by decide)).trans ((Gen.W6_of_ne m ρ c main_arg5 (by decide)).trans
    ((span1_5 m ρ c main_arg5 (by decide) (by decide) (by decide) (by decide)).trans (launch1 m ρ c main_arg5 (by decide))))

/-- An argument that is no array of the first six regions and that no stretch before the sixth region's exit writes is
    there as launched. -/
private theorem launch13 (c : Dev nD) (r : Ref sig .tc) (h0 : r ∉ hostW0) (h1 : ∀ w, Pipeline.arrRef spec0 w ≠ r) (h2 : r ∉ hostW1)
    (h3 : r ∉ hostW1_1) (h4 : ∀ w, Pipeline.arrRef spec1 w ≠ r) (h5 : ∀ w, Pipeline.arrRef spec2 w ≠ r) (h6 : r ∉ hostW3)
    (h7 : r ∉ hostW3_1) (h8 : ∀ w, Pipeline.arrRef spec3 w ≠ r) (h9 : ∀ w, Pipeline.arrRef spec4 w ≠ r) (h10 : r ∉ hostW5)
    (h11 : r ∉ hostW5_1) (h12 : ∀ w, Pipeline.arrRef spec5 w ≠ r) :
    Gen.W13 (F := Ideal) m ρ c (Proc.devRef .tc r) = m ((c.tc : Thread nD τ).loc r) :=
  (span10_13 m ρ c r h10 h11 h12).trans ((Gen.W10_of_ne m ρ c r h9).trans ((span6_9 m ρ c r h6 h7 h8).trans
    ((Gen.W6_of_ne m ρ c r h5).trans ((span1_5 m ρ c r h1 h2 h3 h4).trans (launch1 m ρ c r h0)))))

theorem keep_arg2_13 (c : Dev nD) : Gen.W13 (F := Ideal) m ρ c (Proc.devRef .tc main_arg2) = m ((c.tc : Thread nD τ).loc main_arg2) := by
  exact launch13 m ρ c main_arg2 (by decide) (by decide) (by decide) (by decide) (by decide) (by decide) (by decide) (by decide)
    (by decide) (by decide) (by decide) (by decide) (by decide)

theorem keep_arg6_14 (c : Dev nD) : Gen.W14 (F := Ideal) m ρ c (Proc.devRef .tc main_arg6) = m ((c.tc : Thread nD τ).loc main_arg6) := by
  exact (host6 m ρ c main_arg6 (by decide)).trans (launch13 m ρ c main_arg6 (by decide) (by decide) (by decide) (by decide) (by decide)
    (by decide) (by decide) (by decide) (by decide) (by decide) (by decide) (by decide) (by decide))

theorem keep_arg7_14 (c : Dev nD) : Gen.W14 (F := Ideal) m ρ c (Proc.devRef .tc main_arg7) = m ((c.tc : Thread nD τ).loc main_arg7) := by
  exact (host6 m ρ c main_arg7 (by decide)).trans (launch13 m ρ c main_arg7 (by decide) (by decide) (by decide) (by decide) (by decide)
    (by decide) (by decide) (by decide) (by decide) (by decide) (by decide) (by decide) (by decide))

theorem keep_arg8_14 (c : Dev nD) : Gen.W14 (F := Ideal) m ρ c (Proc.devRef .tc main_arg8) = m ((c.tc : Thread nD τ).loc main_arg8) := by
  exact (host6 m ρ c main_arg8 (by decide)).trans (launch13 m ρ c main_arg8 (by decide) (by decide) (by decide) (by decide) (by decide)
    (by decide) (by decide) (by decide) (by decide) (by decide) (by decide) (by decide) (by decide))

theorem keep_v1_2 (c : Dev nD) : Gen.W2 (F := Ideal) m ρ c (Proc.devRef .tc main_v1) = Gen.W1 (F := Ideal) m ρ c (Proc.devRef .tc main_v1) := by
  exact Gen.W2_of_ne m ρ c main_v1 (by decide)

theorem keep_v1_6 (c : Dev nD) : Gen.W6 (F := Ideal) m ρ c (Proc.devRef .tc main_v1) = Gen.W1 (F := Ideal) m ρ c (Proc.devRef .tc main_v1) := by
  exact (Gen.W6_of_ne m ρ c main_v1 (by decide)).trans (span1_5 m ρ c main_v1 (by decide) (by decide) (by decide) (by decide))

theorem keep_v1_10 (c : Dev nD) : Gen.W10 (F := Ideal) m ρ c (Proc.devRef .tc main_v1) = Gen.W1 (F := Ideal) m ρ c (Proc.devRef .tc main_v1) := by
  exact (Gen.W10_of_ne m ρ c main_v1 (by decide)).trans ((span6_9 m ρ c main_v1 (by decide) (by decide) (by decide)).trans (keep_v1_6 m ρ c))

theorem keep_v3_3 (c : Dev nD) : Gen.W3 (F := Ideal) m ρ c (Proc.devRef .tc main_v3) = Gen.W1 (F := Ideal) m ρ c (Proc.devRef .tc main_v3) := by
  exact (host1 m ρ c main_v3 (by decide)).trans (Gen.W2_of_ne m ρ c main_v3 (by decide))

/-- The second index vector from the first region's entry to the third region's exit. -/
private theorem v3_6 (c : Dev nD) : Gen.W6 (F := Ideal) m ρ c (Proc.devRef .tc main_v3) = Gen.W1 (F := Ideal) m ρ c (Proc.devRef .tc main_v3) :=
  (Gen.W6_of_ne m ρ c main_v3 (by decide)).trans (span1_5 m ρ c main_v3 (by decide) (by decide) (by decide) (by decide))

theorem keep_v3_7 (c : Dev nD) : Gen.W7 (F := Ideal) m ρ c (Proc.devRef .tc main_v3) = Gen.W1 (F := Ideal) m ρ c (Proc.devRef .tc main_v3) := by
  exact (host3 m ρ c main_v3 (by decide)).trans (v3_6 m ρ c)

theorem keep_v3_11 (c : Dev nD) : Gen.W11 (F := Ideal) m ρ c (Proc.devRef .tc main_v3) = Gen.W1 (F := Ideal) m ρ c (Proc.devRef .tc main_v3) := by
  exact (host5 m ρ c main_v3 (by decide)).trans ((Gen.W10_of_ne m ρ c main_v3 (by decide)).trans
    ((span6_9 m ρ c main_v3 (by decide) (by decide) (by decide)).trans (v3_6 m ρ c)))

/-- The third region reads the first layer's output through an input window and leaves it as it found it. -/
theorem keep_v9_13 (c : Dev nD) : Gen.W13 (F := Ideal) m ρ c (Proc.devRef .tc main_v9) = Gen.W5 (F := Ideal) m ρ c (Proc.devRef .tc main_v9) := by
  exact (span10_13 m ρ c main_v9 (by decide) (by decide) (by decide)).trans ((Gen.W10_of_ne m ρ c main_v9 (by decide)).trans
    ((span6_9 m ρ c main_v9 (by decide) (by decide) (by decide)).trans
      ((Gen.W6_arr m ρ c 0).trans (((Gen.dat2 (Gen.V5 m ρ) c).arrAt_in 0 rfl _).trans (Gen.A_eq2 (Gen.V5 m ρ) c 0)))))

/-- The fifth region reads the second layer's output through an input window and leaves it as it found it. -/
theorem keep_v15_13 (c : Dev nD) : Gen.W13 (F := Ideal) m ρ c (Proc.devRef .tc main_v15) = Gen.W9 (F := Ideal) m ρ c (Proc.devRef .tc main_v15) := by
  exact (span10_13 m ρ c main_v15 (by decide) (by decide) (by decide)).trans
    ((Gen.W10_arr m ρ c 0).trans (((Gen.dat4 (Gen.V9 m ρ) c).arrAt_in 0 rfl _).trans (Gen.A_eq4 (Gen.V9 m ρ) c 0)))

end Cert.KernelIdeal.Gcn

end
-- ==== Proof.HostSteps.lean ====
/-
  What each stretch of host operations between the kernel regions leaves in the buffer the next stage reads, as a
  function of the buffers it read: the two index vectors cut from the edge list; per layer the gathered rows and their
  sum over the edges into the destination nodes; the three per-graph sums.
-/
import proofs.«400816_j84945863180634_1_alg».proof.Proof.Gen.KernelIdeal.Frame
import proofs.«400816_j84945863180634_1_alg».proof.Proof.KDefs
import Idealize.ShloMosaic.Lib.StableHlo.Run

set_option maxRecDepth 16384

noncomputable section

open scoped BigOperators

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Facts₀ Cert.KernelIdeal.Facts

variable (m : (ℓ : Loc nD τ sig) → Buf (Elt Ideal) ℓ) (ρ : Dev nD → PrngReg)

/-- Moving a value to a buffer's own type and back gives the value. -/
theorem ofBuf_toBuf {T : BufTy} (x : StableHlo.TRef sig T) (v : T.Contents (Elt Ideal)) : x.ofBuf (x.toBuf v) = v := by
  obtain ⟨r, rfl, _, _⟩ := x
  rfl

theorem src_1 (c : Dev nD) :
    Gen.W1 (F := Ideal) m ρ c (Proc.devRef .tc main_v1)
      = srcOf (m ((c.tc : Thread nD τ).loc main_arg1)) := by
  show StableHlo.after Gen.hostOps0 (Gen.W0 m ρ c) (Proc.devRef .tc main_v1) = _
  generalize hW : Gen.W0 (F := Ideal) m ρ c = Wc
  after_results_simp
  subst hW
  rfl

theorem dst_1 (c : Dev nD) :
    Gen.W1 (F := Ideal) m ρ c (Proc.devRef .tc main_v3)
      = dstOf (m ((c.tc : Thread nD τ).loc main_arg1)) := by
  show StableHlo.after Gen.hostOps0 (Gen.W0 m ρ c) (Proc.devRef .tc main_v3) = _
  generalize hW : Gen.W0 (F := Ideal) m ρ c = Wc
  after_results_simp
  subst hW
  rfl

theorem take_3 (c : Dev nD) :
    Gen.W3 (F := Ideal) m ρ c (Proc.devRef .tc main_v5)
      = takeK (Gen.W2 (F := Ideal) m ρ c (Proc.devRef .tc main_v4)) (Gen.W2 (F := Ideal) m ρ c (Proc.devRef .tc main_v1)) := by
  show StableHlo.after Gen.hostOps1 (Gen.W2 m ρ c) (Proc.devRef .tc main_v5) = _
  generalize Gen.W2 (F := Ideal) m ρ c = Wc
  after_results_simp
  have e1 : (StableHlo.TRef.of main_v1 : StableHlo.TRef sig ⟨S1000000, .i32⟩).ofBuf (Wc (Proc.devRef .tc main_v1))
      = (Wc (Proc.devRef .tc main_v1) : IVec S1000000 32) := rfl
  have e2 : (StableHlo.TRef.of main_v4 : StableHlo.TRef sig ⟨S50000x64, .f32⟩).ofBuf (Wc (Proc.devRef .tc main_v4))
      = (Wc (Proc.devRef .tc main_v4) : FVec Ideal S50000x64 .f32) := rfl
  have e3 : ∀ v : FVec Ideal S1000000x64 .f32,
      (StableHlo.TRef.of main_v5 : StableHlo.TRef sig ⟨S1000000x64, .f32⟩).toBuf (Val := Elt Ideal) v = v := fun v => rfl
  simp only [ofBuf_toBuf, e1, e2]
  unfold takeK wrapIdx
  exact e3 _

theorem agg_4 (c : Dev nD) :
    Gen.W4 (F := Ideal) m ρ c (Proc.devRef .tc main_v8)
      = Host.scatterAdd scatter_S50000x64_S1000000x1_S1000000x64_1_0_0_1 zeroN (colE (Gen.W3 (F := Ideal) m ρ c (Proc.devRef .tc main_v3))) (Gen.W3 (F := Ideal) m ρ c (Proc.devRef .tc main_v5)) := by
  show StableHlo.after Gen.hostOps1_1 (Gen.W3 m ρ c) (Proc.devRef .tc main_v8) = _
  generalize Gen.W3 (F := Ideal) m ρ c = Wc
  after_results_simp
  rfl

theorem take_7 (c : Dev nD) :
    Gen.W7 (F := Ideal) m ρ c (Proc.devRef .tc main_v11)
      = takeK (Gen.W6 (F := Ideal) m ρ c (Proc.devRef .tc main_v10)) (Gen.W6 (F := Ideal) m ρ c (Proc.devRef .tc main_v1)) := by
  show StableHlo.after Gen.hostOps3 (Gen.W6 m ρ c) (Proc.devRef .tc main_v11) = _
  generalize Gen.W6 (F := Ideal) m ρ c = Wc
  after_results_simp
  have e1 : (StableHlo.TRef.of main_v1 : StableHlo.TRef sig ⟨S1000000, .i32⟩).ofBuf (Wc (Proc.devRef .tc main_v1))
      = (Wc (Proc.devRef .tc main_v1) : IVec S1000000 32) := rfl
  have e2 : (StableHlo.TRef.of main_v10 : StableHlo.TRef sig ⟨S50000x64, .f32⟩).ofBuf (Wc (Proc.devRef .tc main_v10))
      = (Wc (Proc.devRef .tc main_v10) : FVec Ideal S50000x64 .f32) := rfl
  have e3 : ∀ v : FVec Ideal S1000000x64 .f32,
      (StableHlo.TRef.of main_v11 : StableHlo.TRef sig ⟨S1000000x64, .f32⟩).toBuf (Val := Elt Ideal) v = v := fun v => rfl
  simp only [ofBuf_toBuf, e1, e2]
  unfold takeK wrapIdx
  exact e3 _

theorem agg_8 (c : Dev nD) :
    Gen.W8 (F := Ideal) m ρ c (Proc.devRef .tc main_v14)
      = Host.scatterAdd scatter_S50000x64_S1000000x1_S1000000x64_1_0_0_1 zeroN (colE (Gen.W7 (F := Ideal) m ρ c (Proc.devRef .tc main_v3))) (Gen.W7 (F := Ideal) m ρ c (Proc.devRef .tc main_v11)) := by
  show StableHlo.after Gen.hostOps3_1 (Gen.W7 m ρ c) (Proc.devRef .tc main_v14) = _
  generalize Gen.W7 (F := Ideal) m ρ c = Wc
  after_results_simp
  rfl

theorem take_11 (c : Dev nD) :
    Gen.W11 (F := Ideal) m ρ c (Proc.devRef .tc main_v17)
      = takeK (Gen.W10 (F := Ideal) m ρ c (Proc.devRef .tc main_v16)) (Gen.W10 (F := Ideal) m ρ c (Proc.devRef .tc main_v1)) := by
  show StableHlo.after Gen.hostOps5 (Gen.W10 m ρ c) (Proc.devRef .tc main_v17) = _
  generalize Gen.W10 (F := Ideal) m ρ c = Wc
  after_results_simp
  have e1 : (StableHlo.TRef.of main_v1 : StableHlo.TRef sig ⟨S1000000, .i32⟩).ofBuf (Wc (Proc.devRef .tc main_v1))
      = (Wc (Proc.devRef .tc main_v1) : IVec S1000000 32) := rfl
  have e2 : (StableHlo.TRef.of main_v16 : StableHlo.TRef sig ⟨S50000x64, .f32⟩).ofBuf (Wc (Proc.devRef .tc main_v16))
      = (Wc (Proc.devRef .tc main_v16) : FVec Ideal S50000x64 .f32) := rfl
  have e3 : ∀ v : FVec Ideal S1000000x64 .f32,
      (StableHlo.TRef.of main_v17 : StableHlo.TRef sig ⟨S1000000x64, .f32⟩).toBuf (Val := Elt Ideal) v = v := fun v => rfl
  simp only [ofBuf_toBuf, e1, e2]
  unfold takeK wrapIdx
  exact e3 _

theorem agg_12 (c : Dev nD) :
    Gen.W12 (F := Ideal) m ρ c (Proc.devRef .tc main_v20)
      = Host.scatterAdd scatter_S50000x64_S1000000x1_S1000000x64_1_0_0_1 zeroN (colE (Gen.W11 (F := Ideal) m ρ c (Proc.devRef .tc main_v3))) (Gen.W11 (F := Ideal) m ρ c (Proc.devRef .tc main_v17)) := by
  show StableHlo.after Gen.hostOps5_1 (Gen.W11 m ρ c) (Proc.devRef .tc main_v20) = _
  generalize Gen.W11 (F := Ideal) m ρ c = Wc
  after_results_simp
  rfl

theorem pool_14a (c : Dev nD) :
    Gen.W14 (F := Ideal) m ρ c (Proc.devRef .tc main_v24)
      = Host.scatterAdd scatter_S256x64_S50000x1_S50000x64_1_0_0_1 zeroG (colN (Gen.W13 (F := Ideal) m ρ c (Proc.devRef .tc main_arg2))) (Gen.W13 (F := Ideal) m ρ c (Proc.devRef .tc main_v9)) := by
  show StableHlo.after Gen.hostOps6 (Gen.W13 m ρ c) (Proc.devRef .tc main_v24) = _
  generalize Gen.W13 (F := Ideal) m ρ c = Wc
  after_results_simp
  rfl

theorem pool_14b (c : Dev nD) :
    Gen.W14 (F := Ideal) m ρ c (Proc.devRef .tc main_v27)
      = Host.scatterAdd scatter_S256x64_S50000x1_S50000x64_1_0_0_1 zeroG (colN (Gen.W13 (F := Ideal) m ρ c (Proc.devRef .tc main_arg2))) (Gen.W13 (F := Ideal) m ρ c (Proc.devRef .tc main_v15)) := by
  show StableHlo.after Gen.hostOps6 (Gen.W13 m ρ c) (Proc.devRef .tc main_v27) = _
  generalize Gen.W13 (F := Ideal) m ρ c = Wc
  after_results_simp
  rfl

theorem pool_14c (c : Dev nD) :
    Gen.W14 (F := Ideal) m ρ c (Proc.devRef .tc main_v30)
      = Host.scatterAdd scatter_S256x64_S50000x1_S50000x64_1_0_0_1 zeroG (colN (Gen.W13 (F := Ideal) m ρ c (Proc.devRef .tc main_arg2))) (Gen.W13 (F := Ideal) m ρ c (Proc.devRef .tc main_v21)) := by
  show StableHlo.after Gen.hostOps6 (Gen.W13 m ρ c) (Proc.devRef .tc main_v30) = _
  generalize Gen.W13 (F := Ideal) m ρ c = Wc
  after_results_simp
  rfl

end Cert.KernelIdeal.Gcn

end
-- ==== Proof.Matmul0.lean ====
/-
  The first matrix product of the network, as the tiled program computes it.

  The [50000, 64] array is cut into ten blocks of 5000 consecutive rows, all 64 columns; block t is rows 5000 t to
  5000 t + 4999.  Entry (p, q) of block t is the sum over k of X(5000 t + p, k) · W(k, q): it depends on the one row
  5000 t + p of the first array and on column q of the whole [64, 64] matrix.  Every row r lies in exactly the block
  r / 5000, so the ten blocks together are the product X W.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The contraction of a [5000, 64] block with the [64, 64] matrix, axis by axis: the left operand is read at the
    output's row and the summed coordinate, the right operand at the summed coordinate and the output's column. -/
private theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's arithmetic at an entry of the block: a change of float format is the identity on the extended reals and
    the accumulator is zero, so entry (p, q) is the sum over k of x(p, k) · w(k, q). -/
private theorem pay_apply (x : Vec Ideal S5000x64 .f32) (w : Vec Ideal S64x64 .f32) (j : S5000x64.Idx) :
    k0_pay1 (F := Ideal) x w j = ∑ k : Fin 64, x (ix2 (j 0) k) * w (ix2 k (j 1)) := by
  unfold k0_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = ix2 (j 0) k := funext fun a => Fin.ext (by
    match a with
    | ⟨0, _⟩ => exact lhs_row _ _
    | ⟨1, _⟩ => exact (lhs_col _ _).trans hk)
  have er : dot_S5000x64_S64x64_S5000x64_1_0_0_1_n_n.rhsIdx j ((ValueIdx.contrEquiv1 dot_S5000x64_S64x64_S5000x64_1_0_0_1_n_n 64 rfl rfl).symm k) = ix2 k (j 1) := funext fun a => Fin.ext (by
    match a with
    | ⟨0, _⟩ => exact (rhs_row _ _).trans hk
    | ⟨1, _⟩ => exact rhs_col _ _)
  rw [el, er]
  -- where the body first casts the block to its own shape, that cast is the identity
  first
    | rfl
    | (rw [shapeCast_self]; rfl)

/-- The zero offset of a whole-buffer access, as the constant function. -/
private theorem off_zero : (![0, 0] : Fin 2 → Nat) = fun _ => 0 := funext fun a => by fin_cases a <;> rfl

/-- The windows' index maps over the grid: at point t the first input and the output are at block (t, 0), the second
    input at block (0, 0). -/
private theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The first input's block at point t, entry (p, k), is the array's entry (5000 t + p, k). -/
private theorem blk_lhs (c : Dev nD) (t : Fin cfg0.N) (y : S5000x64.Idx) :
    iblk0 (F := Ideal) V c 0 t y = V c main_arg0 (((cfg0.win 0).blk t).view.emb y) := rfl

/-- The second input's block at every point is the whole matrix. -/
private theorem blk_rhs (c : Dev nD) (t : Fin cfg0.N) (y : S64x64.Idx) :
    iblk0 (F := Ideal) V c 1 t y = V c main_arg3 (((cfg0.win 1).blk t).view.emb y) := rfl

/-- What point t writes back is block t of the product: entry (p, q) of the block is the sum over k of
    X(5000 t + p, k) · W(k, q). -/
private theorem flushed_eq (c : Dev nD) (t : Fin cfg0.N) :
    (dat0 (F := Ideal) V c).flushed 2 t
      = ((cfg0.win 2).blk t).view.read (Elt Ideal) (Cert.Gcn.mm (V c main_arg0) (V c main_arg3)) := by
  show (cfg0.win 2).cut (grid0.coords t) ((dat0 (F := Ideal) V c).after 2 t) = _
  rw [after0_2]
  unfold out0_2
  rw [View.canon_unit_zero off_zero]
  simp only [View.ld_unit_zero (S := S5000x64) off_zero, View.ld_unit_zero (S := S64x64) off_zero]
  obtain ⟨e0, e1, e2, e3, e4, e5⟩ := idx_facts t
  funext j
  refine (pay_apply _ _ j).trans ?_
  show _ = Cert.Gcn.mm (V c main_arg0) (V c main_arg3) (((cfg0.win 2).blk t).view.emb j)
  unfold Cert.Gcn.mm
  refine Finset.sum_congr rfl fun k _ => ?_
  have hl : ((cfg0.win 0).blk t).view.emb (ix2 (j 0) k) = (ix2 ((((cfg0.win 2).blk t).view.emb j) 0) k : S50000x64.Idx) := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hr : ((cfg0.win 1).blk t).view.emb (ix2 k (j 1)) = (ix2 k ((((cfg0.win 2).blk t).view.emb j) 1) : S64x64.Idx) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact congrArg₂ (· * ·) ((blk_lhs V c t _).trans (congrArg (V c main_arg0) hl)) ((blk_rhs V c t _).trans (congrArg (V c main_arg3) hr))

/-- An index of the array is in point t's block iff each coordinate is in the block's range on its axis. -/
private theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every row r of the array is in the block of the point r / 5000. -/
private theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  obtain ⟨e0, e1, e2, e3, e4, e5⟩ := idx_facts ⟨(i 0).val / 5000, by rw [hN]; omega⟩
  rw [mem_blk]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- Region 0 leaves in its output array the product of its two input arrays as it found them. -/
theorem matmul0_value (c : Dev nD) :
    (dat0 (F := Ideal) V c).arrAt 2 cfg0.N = Cert.Gcn.mm (V c main_arg0) (V c main_arg3) := by
  exact (dat0 (F := Ideal) V c).arrAt_eq_of_cover 2 (Cert.Gcn.mm (V c main_arg0) (V c main_arg3)) (fun t _ => flushed_eq V c t) covered

end Cert.KernelIdeal.Gcn

end
-- ==== Proof.Matmul2.lean ====
/-
  The first matrix product of the network, as the tiled program computes it.

  The [50000, 64] array is cut into ten blocks of 5000 consecutive rows, all 64 columns; block t is rows 5000 t to
  5000 t + 4999.  Entry (p, q) of block t is the sum over k of X(5000 t + p, k) · W(k, q): it depends on the one row
  5000 t + p of the first array and on column q of the whole [64, 64] matrix.  Every row r lies in exactly the block
  r / 5000, so the ten blocks together are the product X W.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The contraction of a [5000, 64] block with the [64, 64] matrix, axis by axis: the left operand is read at the
    output's row and the summed coordinate, the right operand at the summed coordinate and the output's column. -/
private theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's arithmetic at an entry of the block: a change of float format is the identity on the extended reals and
    the accumulator is zero, so entry (p, q) is the sum over k of x(p, k) · w(k, q). -/
private theorem pay_apply (x : Vec Ideal S5000x64 .f32) (w : Vec Ideal S64x64 .f32) (j : S5000x64.Idx) :
    k2_pay1 (F := Ideal) x w j = ∑ k : Fin 64, x (ix2 (j 0) k) * w (ix2 k (j 1)) := by
  unfold k2_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = ix2 (j 0) k := funext fun a => Fin.ext (by
    match a with
    | ⟨0, _⟩ => exact lhs_row _ _
    | ⟨1, _⟩ => exact (lhs_col _ _).trans hk)
  have er : dot_S5000x64_S64x64_S5000x64_1_0_0_1_n_n.rhsIdx j ((ValueIdx.contrEquiv1 dot_S5000x64_S64x64_S5000x64_1_0_0_1_n_n 64 rfl rfl).symm k) = ix2 k (j 1) := funext fun a => Fin.ext (by
    match a with
    | ⟨0, _⟩ => exact (rhs_row _ _).trans hk
    | ⟨1, _⟩ => exact rhs_col _ _)
  rw [el, er]
  -- where the body first casts the block to its own shape, that cast is the identity
  first
    | rfl
    | (rw [shapeCast_self]; rfl)

/-- The zero offset of a whole-buffer access, as the constant function. -/
private theorem off_zero : (![0, 0] : Fin 2 → Nat) = fun _ => 0 := funext fun a => by fin_cases a <;> rfl

/-- The windows' index maps over the grid: at point t the first input and the output are at block (t, 0), the second
    input at block (0, 0). -/
private theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The first input's block at point t, entry (p, k), is the array's entry (5000 t + p, k). -/
private theorem blk_lhs (c : Dev nD) (t : Fin cfg2.N) (y : S5000x64.Idx) :
    iblk2 (F := Ideal) V c 0 t y = V c main_v9 (((cfg2.win 0).blk t).view.emb y) := rfl

/-- The second input's block at every point is the whole matrix. -/
private theorem blk_rhs (c : Dev nD) (t : Fin cfg2.N) (y : S64x64.Idx) :
    iblk2 (F := Ideal) V c 1 t y = V c main_arg4 (((cfg2.win 1).blk t).view.emb y) := rfl

/-- What point t writes back is block t of the product: entry (p, q) of the block is the sum over k of
    X(5000 t + p, k) · W(k, q). -/
private theorem flushed_eq (c : Dev nD) (t : Fin cfg2.N) :
    (dat2 (F := Ideal) V c).flushed 2 t
      = ((cfg2.win 2).blk t).view.read (Elt Ideal) (Cert.Gcn.mm (V c main_v9) (V c main_arg4)) := by
  show (cfg2.win 2).cut (grid2.coords t) ((dat2 (F := Ideal) V c).after 2 t) = _
  rw [after2_2]
  unfold out2_2
  rw [View.canon_unit_zero off_zero]
  simp only [View.ld_unit_zero (S := S5000x64) off_zero, View.ld_unit_zero (S := S64x64) off_zero]
  obtain ⟨e0, e1, e2, e3, e4, e5⟩ := idx_facts t
  funext j
  refine (pay_apply _ _ j).trans ?_
  show _ = Cert.Gcn.mm (V c main_v9) (V c main_arg4) (((cfg2.win 2).blk t).view.emb j)
  unfold Cert.Gcn.mm
  refine Finset.sum_congr rfl fun k _ => ?_
  have hl : ((cfg2.win 0).blk t).view.emb (ix2 (j 0) k) = (ix2 ((((cfg2.win 2).blk t).view.emb j) 0) k : S50000x64.Idx) := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hr : ((cfg2.win 1).blk t).view.emb (ix2 k (j 1)) = (ix2 k ((((cfg2.win 2).blk t).view.emb j) 1) : S64x64.Idx) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  exact congrArg₂ (· * ·) ((blk_lhs V c t _).trans (congrArg (V c main_v9) hl)) ((blk_rhs V c t _).trans (congrArg (V c main_arg4) hr))

/-- An index of the array is in point t's block iff each coordinate is in the block's range on its axis. -/
private theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v10).slice (win2_2.rect t)).set ↔ _
  rw [View.set_slice_whole, Rect.mem_set_unit]
  exact Iff.rfl

/-- Every row r of the array is in the block of the point r / 5000. -/
private theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_0
  refine ⟨⟨(i 0).val / 5000, by rw [hN]; omega⟩, flush2_2 _, ?_⟩
  obtain ⟨e0, e1, e2, e3, e4, e5⟩ := idx_facts ⟨(i 0).val / 5000, by rw [hN]; omega⟩
  rw [mem_blk]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- Region 0 leaves in its output array the product of its two input arrays as it found them. -/
theorem matmul2_value (c : Dev nD) :
    (dat2 (F := Ideal) V c).arrAt 2 cfg2.N = Cert.Gcn.mm (V c main_v9) (V c main_arg4) := by
  exact (dat2 (F := Ideal) V c).arrAt_eq_of_cover 2 (Cert.Gcn.mm (V c main_v9) (V c main_arg4)) (fun t _ => flushed_eq V c t) covered

end Cert.KernelIdeal.Gcn

end
-- ==== Proof.Matmul4.lean ====
/-
  The first matrix product of the network, as the tiled program computes it.

  The [50000, 64] array is cut into ten blocks of 5000 consecutive rows, all 64 columns; block t is rows 5000 t to
  5000 t + 4999.  Entry (p, q) of block t is the sum over k of X(5000 t + p, k) · W(k, q): it depends on the one row
  5000 t + p of the first array and on column q of the whole [64, 64] matrix.  Every row r lies in exactly the block
  r / 5000, so the ten blocks together are the product X W.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The contraction of a [5000, 64] block with the [64, 64] matrix, axis by axis: the left operand is read at the
    output's row and the summed coordinate, the right operand at the summed coordinate and the output's column. -/
private theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's arithmetic at an entry of the block: a change of float format is the identity on the extended reals and
    the accumulator is zero, so entry (p, q) is the sum over k of x(p, k) · w(k, q). -/
private theorem pay_apply (x : Vec Ideal S5000x64 .f32) (w : Vec Ideal S64x64 .f32) (j : S5000x64.Idx) :
    k4_pay1 (F := Ideal) x w j = ∑ k : Fin 64, x (ix2 (j 0) k) * w (ix2 k (j 1)) := by
  unfold k4_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = ix2 (j 0) k := funext fun a => Fin.ext (by
    match a with
    | ⟨0, _⟩ => exact lhs_row _ _
    | ⟨1, _⟩ => exact (lhs_col _ _).trans hk)
  have er : dot_S5000x64_S64x64_S5000x64_1_0_0_1_n_n.rhsIdx j ((ValueIdx.contrEquiv1 dot_S5000x64_S64x64_S5000x64_1_0_0_1_n_n 64 rfl rfl).symm k) = ix2 k (j 1) := funext fun a => Fin.ext (by
    match a with
    | ⟨0, _⟩ => exact (rhs_row _ _).trans hk
    | ⟨1, _⟩ => exact rhs_col _ _)
  rw [el, er]
  -- where the body first casts the block to its own shape, that cast is the identity
  first
    | rfl
    | (rw [shapeCast_self]; rfl)

/-- The zero offset of a whole-buffer access, as the constant function. -/
private theorem off_zero : (![0, 0] : Fin 2 → Nat) = fun _ => 0 := funext fun a => by fin_cases a <;> rfl

/-- The windows' index maps over the grid: at point t the first input and the output are at block (t, 0), the second
    input at block (0, 0). -/
private theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The first input's block at point t, entry (p, k), is the array's entry (5000 t + p, k). -/
private theorem blk_lhs (c : Dev nD) (t : Fin cfg4.N) (y : S5000x64.Idx) :
    iblk4 (F := Ideal) V c 0 t y = V c main_v15 (((cfg4.win 0).blk t).view.emb y) := rfl

/-- The second input's block at every point is the whole matrix. -/
private theorem blk_rhs (c : Dev nD) (t : Fin cfg4.N) (y : S64x64.Idx) :
    iblk4 (F := Ideal) V c 1 t y = V c main_arg5 (((cfg4.win 1).blk t).view.emb y) := rfl

/-- What point t writes back is block t of the product: entry (p, q) of the block is the sum over k of
    X(5000 t + p, k) · W(k, q). -/
private theorem flushed_eq (c : Dev nD) (t : Fin cfg4.N) :
    (dat4 (F := Ideal) V c).flushed 2 t
      = ((cfg4.win 2).blk t).view.read (Elt Ideal) (Cert.Gcn.mm (V c main_v15) (V c main_arg5)) := by
  show (cfg4.win 2).cut (grid4.coords t) ((dat4 (F := Ideal) V c).after 2 t) = _
  rw [after4_2]
  unfold out4_2
  rw [View.canon_unit_zero off_zero]
  simp only [View.ld_unit_zero (S := S5000x64) off_zero, View.ld_unit_zero (S := S64x64) off_zero]
  obtain ⟨e0, e1, e2, e3, e4, e5⟩ := idx_facts t
  funext j
  refine (pay_apply _ _ j).trans ?_
  show _ = Cert.Gcn.mm (V c main_v15) (V c main_arg5) (((cfg4.win 2).blk t).view.emb j)
  unfold Cert.Gcn.mm
  refine Finset.sum_congr rfl fun k _ => ?_
  have hl : ((cfg4.win 0).blk t).view.emb (ix2 (j 0) k) = (ix2 ((((cfg4.win 2).blk t).view.emb j) 0) k : S50000x64.Idx) := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have hr : ((cfg4.win 1).blk t).view.emb (ix2 k (j 1)) = (ix2 k ((((cfg4.win 2).blk t).view.emb j) 1) : S64x64.Idx) := by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  exact congrArg₂ (· * ·) ((blk_lhs V c t _).trans (congrArg (V c main_v15) hl)) ((blk_rhs V c t _).trans (congrArg (V c main_arg5) hr))

/-- An index of the array is in point t's block iff each coordinate is in the block's range on its axis. -/
private theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v16).slice (win4_2.rect t)).set ↔ _
  rw [View.set_slice_whole, Rect.mem_set_unit]
  exact Iff.rfl

/-- Every row r of the array is in the block of the point r / 5000. -/
private theorem covered (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_0
  refine ⟨⟨(i 0).val / 5000, by rw [hN]; omega⟩, flush4_2 _, ?_⟩
  obtain ⟨e0, e1, e2, e3, e4, e5⟩ := idx_facts ⟨(i 0).val / 5000, by rw [hN]; omega⟩
  rw [mem_blk]
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 64 ≤ (i 1).val ∧ (i 1).val < win4_2.index _ (1 : Fin 2) * 64 + 64; rw [e5]; omega

/-- Region 0 leaves in its output array the product of its two input arrays as it found them. -/
theorem matmul4_value (c : Dev nD) :
    (dat4 (F := Ideal) V c).arrAt 2 cfg4.N = Cert.Gcn.mm (V c main_v15) (V c main_arg5) := by
  exact (dat4 (F := Ideal) V c).arrAt_eq_of_cover 2 (Cert.Gcn.mm (V c main_v15) (V c main_arg5)) (fun t _ => flushed_eq V c t) covered

end Cert.KernelIdeal.Gcn

end
-- ==== Proof.Relu1.lean ====
/-
  This region takes the positive part of a 50000 x 64 array, ten blocks of 5000 rows at a time: entry (p, q) of
  block t of the output is max (X (5000 t + p, q)) 0, and the ten blocks tile the rows, so the whole output array is
  the positive part of the whole input array, entry by entry.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The origin of a rank-2 block, as the constant-zero offset. -/
private theorem origin_zero : (![0, 0] : Fin 2 → Nat) = fun _ => 0 := funext fun a => by fin_cases a <;> rfl

/-- The body's arithmetic at an entry: the larger of the loaded entry and zero (the cast to the same shape moves
    nothing, the zero word is the number 0). -/
private theorem payload_apply (x : Vec Ideal S5000x64 .f32) (j : S5000x64.Idx) :
    k1_pay1 (F := Ideal) x j = max (x j) 0 := by
  unfold k1_pay1
  show max (shapeCast S5000x64 x shapeCasts_S5000x64_S5000x64 j) (Ideal.ofBits .f32 0x00000000#32) = _
  rw [shapeCast_self, show Ideal.ofBits .f32 0x00000000#32 = 0 by simp [Ideal.ofBits, Ideal.ieee]]

/-- The two windows move together: at every point the input's block index is the output's, which runs over the ten
    row blocks and stays at column block 0. -/
private theorem index_facts : ∀ t : Fin cfg1.N, win1_0.index t (0 : Fin 2) = win1_1.index t (0 : Fin 2) + 0
    ∧ win1_0.index t (1 : Fin 2) = win1_1.index t (1 : Fin 2) + 0
    ∧ 0 ≤ win1_1.index t (0 : Fin 2) ∧ win1_1.index t (0 : Fin 2) ≤ 9
    ∧ 0 ≤ win1_1.index t (1 : Fin 2) ∧ win1_1.index t (1 : Fin 2) ≤ 0 :=
  (by decide +kernel : ∀ t : Fin grid1.N, _)

/-- Every row block is some point's. -/
private theorem index_onto : ∀ (q0 : Fin 10) (q1 : Fin 1), ∃ t : Fin cfg1.N, win1_1.index t = ![q0.val + 0, q1.val + 0] :=
  (by decide +kernel : ∀ (q0 : Fin 10) (q1 : Fin 1), ∃ t : Fin grid1.N, win1_1.index t = ![q0.val + 0, q1.val + 0])

/-- The input block of point `t` at an entry is the input array where the block sits. -/
private theorem read_in_block (c : Dev nD) (t : Fin cfg1.N) (y) :
    iblk1 (F := Ideal) V c 0 t y = V c main_v8 (((cfg1.win 0).blk t).view.emb y) := rfl

/-- What point `t` writes back is block `t` of the positive part of the input array. -/
private theorem flushed_eq (c : Dev nD) (t : Fin cfg1.N) :
    (dat1 (F := Ideal) V c).flushed 1 t = ((cfg1.win 1).blk t).view.read (Elt Ideal) (Cert.Gcn.relu (V c main_v8)) := by
  show (cfg1.win 1).cut (grid1.coords t) ((dat1 (F := Ideal) V c).after 1 t) = _
  rw [after1_1]
  unfold out1_1
  rw [View.canon_unit_zero origin_zero]
  simp only [View.ld_unit_zero (S := S5000x64) origin_zero]
  obtain ⟨e0, e1, e2, e3, e4, e5⟩ := index_facts t
  funext j
  show k1_pay1 (F := Ideal) (iblk1 V c 0 t) j = Cert.Gcn.relu (V c main_v8) (((cfg1.win 1).blk t).view.emb j)
  refine (payload_apply _ j).trans ?_
  rw [read_in_block]
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  rw [h0]
  rfl

/-- An index of the output array is in point `t`'s block iff each coordinate is in the block's range on its axis. -/
private theorem mem_block (t : Fin cfg1.N) (i : S50000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v9).slice (win1_1.rect t)).set ↔ _
  rw [View.set_slice_whole, Rect.mem_set_unit]
  exact Iff.rfl

/-- The ten blocks tile the rows: row r is in the block of the point whose block index is r / 5000. -/
private theorem covered (i : S50000x64.Idx) :
    ∃ t : Fin cfg1.N, (cfg1.win 1).flush t = true ∧ i ∈ ((cfg1.win 1).blk t).view.set := by
  have hi0 : (i 0).val < 50000 := (i 0).isLt
  have hi1 : (i 1).val < 64 := (i 1).isLt
  obtain ⟨t, ht⟩ := index_onto ⟨(i 0).val / 5000 - 0, by omega⟩ ⟨(i 1).val / 64 - 0, by omega⟩
  have q0 : win1_1.index t (0 : Fin 2) = (i 0).val / 5000 - 0 + 0 := congrFun ht 0
  have q1 : win1_1.index t (1 : Fin 2) = (i 1).val / 64 - 0 + 0 := congrFun ht 1
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 64 ≤ (i 1).val ∧ (i 1).val < win1_1.index t (1 : Fin 2) * 64 + 64; omega

/-- Region 1 leaves in its output array the positive part of its input array as it found it. -/
theorem relu1_value (c : Dev nD) :
    (dat1 (F := Ideal) V c).arrAt 1 cfg1.N = Cert.Gcn.relu (V c main_v8) :=
  (dat1 (F := Ideal) V c).arrAt_eq_of_cover 1 (Cert.Gcn.relu (V c main_v8)) (fun t _ => flushed_eq V c t) covered

end Cert.KernelIdeal.Gcn

end
-- ==== Proof.Relu3.lean ====
/-
  This region takes the positive part of a 50000 x 64 array, ten blocks of 5000 rows at a time: entry (p, q) of
  block t of the output is max (X (5000 t + p, q)) 0, and the ten blocks tile the rows, so the whole output array is
  the positive part of the whole input array, entry by entry.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The origin of a rank-2 block, as the constant-zero offset. -/
private theorem origin_zero : (![0, 0] : Fin 2 → Nat) = fun _ => 0 := funext fun a => by fin_cases a <;> rfl

/-- The body's arithmetic at an entry: the larger of the loaded entry and zero (the cast to the same shape moves
    nothing, the zero word is the number 0). -/
private theorem payload_apply (x : Vec Ideal S5000x64 .f32) (j : S5000x64.Idx) :
    k3_pay1 (F := Ideal) x j = max (x j) 0 := by
  unfold k3_pay1
  show max (shapeCast S5000x64 x shapeCasts_S5000x64_S5000x64 j) (Ideal.ofBits .f32 0x00000000#32) = _
  rw [shapeCast_self, show Ideal.ofBits .f32 0x00000000#32 = 0 by simp [Ideal.ofBits, Ideal.ieee]]

/-- The two windows move together: at every point the input's block index is the output's, which runs over the ten
    row blocks and stays at column block 0. -/
private theorem index_facts : ∀ t : Fin cfg3.N, win3_0.index t (0 : Fin 2) = win3_1.index t (0 : Fin 2) + 0
    ∧ win3_0.index t (1 : Fin 2) = win3_1.index t (1 : Fin 2) + 0
    ∧ 0 ≤ win3_1.index t (0 : Fin 2) ∧ win3_1.index t (0 : Fin 2) ≤ 9
    ∧ 0 ≤ win3_1.index t (1 : Fin 2) ∧ win3_1.index t (1 : Fin 2) ≤ 0 :=
  (by decide +kernel : ∀ t : Fin grid3.N, _)

/-- Every row block is some point's. -/
private theorem index_onto : ∀ (q0 : Fin 10) (q1 : Fin 1), ∃ t : Fin cfg3.N, win3_1.index t = ![q0.val + 0, q1.val + 0] :=
  (by decide +kernel : ∀ (q0 : Fin 10) (q1 : Fin 1), ∃ t : Fin grid3.N, win3_1.index t = ![q0.val + 0, q1.val + 0])

/-- The input block of point `t` at an entry is the input array where the block sits. -/
private theorem read_in_block (c : Dev nD) (t : Fin cfg3.N) (y) :
    iblk3 (F := Ideal) V c 0 t y = V c main_v14 (((cfg3.win 0).blk t).view.emb y) := rfl

/-- What point `t` writes back is block `t` of the positive part of the input array. -/
private theorem flushed_eq (c : Dev nD) (t : Fin cfg3.N) :
    (dat3 (F := Ideal) V c).flushed 1 t = ((cfg3.win 1).blk t).view.read (Elt Ideal) (Cert.Gcn.relu (V c main_v14)) := by
  show (cfg3.win 1).cut (grid3.coords t) ((dat3 (F := Ideal) V c).after 1 t) = _
  rw [after3_1]
  unfold out3_1
  rw [View.canon_unit_zero origin_zero]
  simp only [View.ld_unit_zero (S := S5000x64) origin_zero]
  obtain ⟨e0, e1, e2, e3, e4, e5⟩ := index_facts t
  funext j
  show k3_pay1 (F := Ideal) (iblk3 V c 0 t) j = Cert.Gcn.relu (V c main_v14) (((cfg3.win 1).blk t).view.emb j)
  refine (payload_apply _ j).trans ?_
  rw [read_in_block]
  have h0 : ((cfg3.win 0).blk t).view.emb j = ((cfg3.win 1).blk t).view.emb j := by
    funext a; apply Fin.ext
    match a with
    | ⟨0, _⟩ => show win3_0.index t (0 : Fin 2) * 5000 + 1 * (j 0).val = win3_1.index t (0 : Fin 2) * 5000 + 1 * (j 0).val; omega
    | ⟨1, _⟩ => show win3_0.index t (1 : Fin 2) * 64 + 1 * (j 1).val = win3_1.index t (1 : Fin 2) * 64 + 1 * (j 1).val; omega
  rw [h0]
  rfl

/-- An index of the output array is in point `t`'s block iff each coordinate is in the block's range on its axis. -/
private theorem mem_block (t : Fin cfg3.N) (i : S50000x64.Idx) :
    i ∈ ((cfg3.win 1).blk t).view.set ↔ ∀ a : Fin 2, win3_1.index t a * S5000x64.size a ≤ (i a).val ∧ (i a).val < win3_1.index t a * S5000x64.size a + S5000x64.size a := by
  show i ∈ ((View.whole main_v15).slice (win3_1.rect t)).set ↔ _
  rw [View.set_slice_whole, Rect.mem_set_unit]
  exact Iff.rfl

/-- The ten blocks tile the rows: row r is in the block of the point whose block index is r / 5000. -/
private theorem covered (i : S50000x64.Idx) :
    ∃ t : Fin cfg3.N, (cfg3.win 1).flush t = true ∧ i ∈ ((cfg3.win 1).blk t).view.set := by
  have hi0 : (i 0).val < 50000 := (i 0).isLt
  have hi1 : (i 1).val < 64 := (i 1).isLt
  obtain ⟨t, ht⟩ := index_onto ⟨(i 0).val / 5000 - 0, by omega⟩ ⟨(i 1).val / 64 - 0, by omega⟩
  have q0 : win3_1.index t (0 : Fin 2) = (i 0).val / 5000 - 0 + 0 := congrFun ht 0
  have q1 : win3_1.index t (1 : Fin 2) = (i 1).val / 64 - 0 + 0 := congrFun ht 1
  refine ⟨t, flush3_1 t, ?_⟩
  rw [mem_block]
  intro a
  match a with
  | ⟨0, _⟩ => show win3_1.index t (0 : Fin 2) * 5000 ≤ (i 0).val ∧ (i 0).val < win3_1.index t (0 : Fin 2) * 5000 + 5000; omega
  | ⟨1, _⟩ => show win3_1.index t (1 : Fin 2) * 64 ≤ (i 1).val ∧ (i 1).val < win3_1.index t (1 : Fin 2) * 64 + 64; omega

/-- Region 1 leaves in its output array the positive part of its input array as it found it. -/
theorem relu3_value (c : Dev nD) :
    (dat3 (F := Ideal) V c).arrAt 1 cfg3.N = Cert.Gcn.relu (V c main_v14) :=
  (dat3 (F := Ideal) V c).arrAt_eq_of_cover 1 (Cert.Gcn.relu (V c main_v14)) (fun t _ => flushed_eq V c t) covered

end Cert.KernelIdeal.Gcn

end
-- ==== Proof.Relu5.lean ====
/-
  This region takes the positive part of a 50000 x 64 array, ten blocks of 5000 rows at a time: entry (p, q) of
  block t of the output is max (X (5000 t + p, q)) 0, and the ten blocks tile the rows, so the whole output array is
  the positive part of the whole input array, entry by entry.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The origin of a rank-2 block, as the constant-zero offset. -/
private theorem origin_zero : (![0, 0] : Fin 2 → Nat) = fun _ => 0 := funext fun a => by fin_cases a <;> rfl

/-- The body's arithmetic at an entry: the larger of the loaded entry and zero (the cast to the same shape moves
    nothing, the zero word is the number 0). -/
private theorem payload_apply (x : Vec Ideal S5000x64 .f32) (j : S5000x64.Idx) :
    k5_pay1 (F := Ideal) x j = max (x j) 0 := by
  unfold k5_pay1
  show max (shapeCast S5000x64 x shapeCasts_S5000x64_S5000x64 j) (Ideal.ofBits .f32 0x00000000#32) = _
  rw [shapeCast_self, show Ideal.ofBits .f32 0x00000000#32 = 0 by simp [Ideal.ofBits, Ideal.ieee]]

/-- The two windows move together: at every point the input's block index is the output's, which runs over the ten
    row blocks and stays at column block 0. -/
private theorem index_facts : ∀ t : Fin cfg5.N, win5_0.index t (0 : Fin 2) = win5_1.index t (0 : Fin 2) + 0
    ∧ win5_0.index t (1 : Fin 2) = win5_1.index t (1 : Fin 2) + 0
    ∧ 0 ≤ win5_1.index t (0 : Fin 2) ∧ win5_1.index t (0 : Fin 2) ≤ 9
    ∧ 0 ≤ win5_1.index t (1 : Fin 2) ∧ win5_1.index t (1 : Fin 2) ≤ 0 :=
  (by decide +kernel : ∀ t : Fin grid5.N, _)

/-- Every row block is some point's. -/
private theorem index_onto : ∀ (q0 : Fin 10) (q1 : Fin 1), ∃ t : Fin cfg5.N, win5_1.index t = ![q0.val + 0, q1.val + 0] :=
  (by decide +kernel : ∀ (q0 : Fin 10) (q1 : Fin 1), ∃ t : Fin grid5.N, win5_1.index t = ![q0.val + 0, q1.val + 0])

/-- The input block of point `t` at an entry is the input array where the block sits. -/
private theorem read_in_block (c : Dev nD) (t : Fin cfg5.N) (y) :
    iblk5 (F := Ideal) V c 0 t y = V c main_v20 (((cfg5.win 0).blk t).view.emb y) := rfl

/-- What point `t` writes back is block `t` of the positive part of the input array. -/
private theorem flushed_eq (c : Dev nD) (t : Fin cfg5.N) :
    (dat5 (F := Ideal) V c).flushed 1 t = ((cfg5.win 1).blk t).view.read (Elt Ideal) (Cert.Gcn.relu (V c main_v20)) := by
  show (cfg5.win 1).cut (grid5.coords t) ((dat5 (F := Ideal) V c).after 1 t) = _
  rw [after5_1]
  unfold out5_1
  rw [View.canon_unit_zero origin_zero]
  simp only [View.ld_unit_zero (S := S5000x64) origin_zero]
  obtain ⟨e0, e1, e2, e3, e4, e5⟩ := index_facts t
  funext j
  show k5_pay1 (F := Ideal) (iblk5 V c 0 t) j = Cert.Gcn.relu (V c main_v20) (((cfg5.win 1).blk t).view.emb j)
  refine (payload_apply _ j).trans ?_
  rw [read_in_block]
  have h0 : ((cfg5.win 0).blk t).view.emb j = ((cfg5.win 1).blk t).view.emb j := by
    funext a; apply Fin.ext
    match a with
    | ⟨0, _⟩ => show win5_0.index t (0 : Fin 2) * 5000 + 1 * (j 0).val = win5_1.index t (0 : Fin 2) * 5000 + 1 * (j 0).val; omega
    | ⟨1, _⟩ => show win5_0.index t (1 : Fin 2) * 64 + 1 * (j 1).val = win5_1.index t (1 : Fin 2) * 64 + 1 * (j 1).val; omega
  rw [h0]
  rfl

/-- An index of the output array is in point `t`'s block iff each coordinate is in the block's range on its axis. -/
private theorem mem_block (t : Fin cfg5.N) (i : S50000x64.Idx) :
    i ∈ ((cfg5.win 1).blk t).view.set ↔ ∀ a : Fin 2, win5_1.index t a * S5000x64.size a ≤ (i a).val ∧ (i a).val < win5_1.index t a * S5000x64.size a + S5000x64.size a := by
  show i ∈ ((View.whole main_v21).slice (win5_1.rect t)).set ↔ _
  rw [View.set_slice_whole, Rect.mem_set_unit]
  exact Iff.rfl

/-- The ten blocks tile the rows: row r is in the block of the point whose block index is r / 5000. -/
private theorem covered (i : S50000x64.Idx) :
    ∃ t : Fin cfg5.N, (cfg5.win 1).flush t = true ∧ i ∈ ((cfg5.win 1).blk t).view.set := by
  have hi0 : (i 0).val < 50000 := (i 0).isLt
  have hi1 : (i 1).val < 64 := (i 1).isLt
  obtain ⟨t, ht⟩ := index_onto ⟨(i 0).val / 5000 - 0, by omega⟩ ⟨(i 1).val / 64 - 0, by omega⟩
  have q0 : win5_1.index t (0 : Fin 2) = (i 0).val / 5000 - 0 + 0 := congrFun ht 0
  have q1 : win5_1.index t (1 : Fin 2) = (i 1).val / 64 - 0 + 0 := congrFun ht 1
  refine ⟨t, flush5_1 t, ?_⟩
  rw [mem_block]
  intro a
  match a with
  | ⟨0, _⟩ => show win5_1.index t (0 : Fin 2) * 5000 ≤ (i 0).val ∧ (i 0).val < win5_1.index t (0 : Fin 2) * 5000 + 5000; omega
  | ⟨1, _⟩ => show win5_1.index t (1 : Fin 2) * 64 ≤ (i 1).val ∧ (i 1).val < win5_1.index t (1 : Fin 2) * 64 + 64; omega

/-- Region 1 leaves in its output array the positive part of its input array as it found it. -/
theorem relu5_value (c : Dev nD) :
    (dat5 (F := Ideal) V c).arrAt 1 cfg5.N = Cert.Gcn.relu (V c main_v20) :=
  (dat5 (F := Ideal) V c).arrAt_eq_of_cover 1 (Cert.Gcn.relu (V c main_v20)) (fun t _ => flushed_eq V c t) covered

end Cert.KernelIdeal.Gcn

end
-- ==== Proof.Pool6.lean ====
/-
  The pooling region has one grid point, so each of its seven windows is its whole array. Its body stores the positive
  part of the sum of three [256, 64] x [64, 64] products, each entry of a product the sum of 64 products of entries;
  hence the output array ends holding that function of the six input arrays, index by index.
-/
import proofs.«400816_j84945863180634_1_alg».proof.Proof.Gen.KernelIdeal.Frame
import proofs.«400816_j84945863180634_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## One product of the pooled sum, read at an index -/

theorem pool_lhs_0 (i : S256x64.Idx) (q : Cert.KernelIdeal.dot_S256x64_S64x64_S256x64_1_0_0_1_n_n.contr.Idx) :
    (Cert.KernelIdeal.dot_S256x64_S64x64_S256x64_1_0_0_1_n_n.lhsIdx i q 0).val = (i 0).val := by
  unfold DotDims.lhsIdx
  rw [dif_neg (show ¬(0 : Fin S256x64.rank) ∈ Cert.KernelIdeal.dot_S256x64_S64x64_S256x64_1_0_0_1_n_n.lhsBatch by decide), dif_pos (show (0 : Fin S256x64.rank) ∈ Cert.KernelIdeal.dot_S256x64_S64x64_S256x64_1_0_0_1_n_n.lhsNonContracting by decide)]
  rfl
theorem pool_lhs_1 (i : S256x64.Idx) (q : Cert.KernelIdeal.dot_S256x64_S64x64_S256x64_1_0_0_1_n_n.contr.Idx) :
    (Cert.KernelIdeal.dot_S256x64_S64x64_S256x64_1_0_0_1_n_n.lhsIdx i q 1).val = (q ⟨0, by decide⟩).val :=
  Cert.KernelIdeal.dot_S256x64_S64x64_S256x64_1_0_0_1_n_n.lhsIdx_val_of_single rfl i q
theorem pool_rhs_0 (i : S256x64.Idx) (q : Cert.KernelIdeal.dot_S256x64_S64x64_S256x64_1_0_0_1_n_n.contr.Idx) :
    (Cert.KernelIdeal.dot_S256x64_S64x64_S256x64_1_0_0_1_n_n.rhsIdx i q 0).val = (q ⟨0, by decide⟩).val :=
  Cert.KernelIdeal.dot_S256x64_S64x64_S256x64_1_0_0_1_n_n.rhsIdx_val_of_single rfl i q
theorem pool_rhs_1 (i : S256x64.Idx) (q : Cert.KernelIdeal.dot_S256x64_S64x64_S256x64_1_0_0_1_n_n.contr.Idx) :
    (Cert.KernelIdeal.dot_S256x64_S64x64_S256x64_1_0_0_1_n_n.rhsIdx i q 1).val = (i 1).val := by
  unfold DotDims.rhsIdx
  rw [dif_neg (show ¬(1 : Fin S64x64.rank) ∈ Cert.KernelIdeal.dot_S256x64_S64x64_S256x64_1_0_0_1_n_n.rhsBatch by decide), dif_pos (show (1 : Fin S64x64.rank) ∈ Cert.KernelIdeal.dot_S256x64_S64x64_S256x64_1_0_0_1_n_n.rhsNonContracting by decide)]
  rfl

/-- A product into the zero accumulator, read at an index, is the sum over the 64 contracted positions:
    entry (r, q) is the sum over k of X(r, k) · W(k, q). -/
theorem pool_matmul_zero_apply (x : FVec Ideal S256x64 .bf16) (w : FVec Ideal S64x64 .bf16) (i : S256x64.Idx) :
    matmul (F := Ideal) Cert.KernelIdeal.dot_S256x64_S64x64_S256x64_1_0_0_1_n_n none x w (constant (F := Ideal) S256x64 .f32 0x00000000#32) i
      = ∑ k : Fin 64, x (ix2 (i 0) k) * w (ix2 k (i 1)) := by
  simp only [matmul]
  rw [Ideal.matmul_constant_zero_apply, ← Equiv.sum_comp (ValueIdx.contrEquiv1 Cert.KernelIdeal.dot_S256x64_S64x64_S256x64_1_0_0_1_n_n 64 rfl rfl).symm]
  refine Finset.sum_congr rfl fun k _ => ?_
  have hk := ValueIdx.contrEquiv1_symm_val Cert.KernelIdeal.dot_S256x64_S64x64_S256x64_1_0_0_1_n_n 64 rfl rfl k
  have el : Cert.KernelIdeal.dot_S256x64_S64x64_S256x64_1_0_0_1_n_n.lhsIdx i ((ValueIdx.contrEquiv1 Cert.KernelIdeal.dot_S256x64_S64x64_S256x64_1_0_0_1_n_n 64 rfl rfl).symm k) = ix2 (i 0) k := funext fun a => Fin.ext (by
    match a with
    | ⟨0, _⟩ => exact pool_lhs_0 _ _
    | ⟨1, _⟩ => exact (pool_lhs_1 _ _).trans hk)
  have er : Cert.KernelIdeal.dot_S256x64_S64x64_S256x64_1_0_0_1_n_n.rhsIdx i ((ValueIdx.contrEquiv1 Cert.KernelIdeal.dot_S256x64_S64x64_S256x64_1_0_0_1_n_n 64 rfl rfl).symm k) = ix2 k (i 1) := funext fun a => Fin.ext (by
    match a with
    | ⟨0, _⟩ => exact (pool_rhs_0 _ _).trans hk
    | ⟨1, _⟩ => exact pool_rhs_1 _ _)
  rw [el, er]
  rfl

/-- The body's arithmetic: the positive part of the sum of the three products of its loaded blocks. -/
theorem pool_pay_eq (s1 s2 s3 : Vec Ideal S256x64 .f32) (p1 p2 p3 : Vec Ideal S64x64 .f32) :
    k6_pay1 (F := Ideal) s1 s2 s3 p1 p2 p3
      = Cert.Gcn.relu (addf (addf (Cert.Gcn.mm s1 p1) (Cert.Gcn.mm s2 p2)) (Cert.Gcn.mm s3 p3)) := by
  funext i
  unfold k6_pay1
  simp only [shapeCast_self]
  show max (matmul (F := Ideal) Cert.KernelIdeal.dot_S256x64_S64x64_S256x64_1_0_0_1_n_n none (truncf .bf16 s1 bitsLt_bf16_f32) (truncf .bf16 p1 bitsLt_bf16_f32) (constant (F := Ideal) S256x64 .f32 0x00000000#32) i
        + matmul (F := Ideal) Cert.KernelIdeal.dot_S256x64_S64x64_S256x64_1_0_0_1_n_n none (truncf .bf16 s2 bitsLt_bf16_f32) (truncf .bf16 p2 bitsLt_bf16_f32) (constant (F := Ideal) S256x64 .f32 0x00000000#32) i
        + matmul (F := Ideal) Cert.KernelIdeal.dot_S256x64_S64x64_S256x64_1_0_0_1_n_n none (truncf .bf16 s3 bitsLt_bf16_f32) (truncf .bf16 p3 bitsLt_bf16_f32) (constant (F := Ideal) S256x64 .f32 0x00000000#32) i)
      (Ideal.ofBits .f32 0x00000000#32) = _
  rw [pool_matmul_zero_apply, pool_matmul_zero_apply, pool_matmul_zero_apply, Ideal.ofBits_zero_f32]
  rfl

/-! ## From the one block to the array -/

/-- The offset at which the body loads and stores is the origin. -/
theorem pool_origin_eq : (![0, 0] : Fin 2 → Nat) = fun _ => 0 := funext fun a => by fin_cases a <;> rfl

/-- Every window's block index is (0, 0) at every point of the grid. -/
theorem pool_block_index_zero : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Each input window's block is its whole array: the block's element y sits at y. -/
theorem pool_read_block_0 (c : Dev nD) (t : Fin cfg6.N) (y : S256x64.Idx) : iblk6 (F := Ideal) V c 0 t y = V c main_v24 y := by
  show V c main_v24 (((cfg6.win 0).blk t).view.emb y) = V c main_v24 y
  obtain ⟨e0, e1, -⟩ := pool_block_index_zero t
  refine congrArg _ (funext fun a => Fin.ext ?_)
  match a with
  | ⟨0, _⟩ => show win6_0.index t (0 : Fin 2) * 256 + 1 * (y 0).val = (y 0).val; omega
  | ⟨1, _⟩ => show win6_0.index t (1 : Fin 2) * 64 + 1 * (y 1).val = (y 1).val; omega
theorem pool_read_block_1 (c : Dev nD) (t : Fin cfg6.N) (y : S256x64.Idx) : iblk6 (F := Ideal) V c 1 t y = V c main_v27 y := by
  show V c main_v27 (((cfg6.win 1).blk t).view.emb y) = V c main_v27 y
  obtain ⟨-, -, e0, e1, -⟩ := pool_block_index_zero t
  refine congrArg _ (funext fun a => Fin.ext ?_)
  match a with
  | ⟨0, _⟩ => show win6_1.index t (0 : Fin 2) * 256 + 1 * (y 0).val = (y 0).val; omega
  | ⟨1, _⟩ => show win6_1.index t (1 : Fin 2) * 64 + 1 * (y 1).val = (y 1).val; omega
theorem pool_read_block_2 (c : Dev nD) (t : Fin cfg6.N) (y : S256x64.Idx) : iblk6 (F := Ideal) V c 2 t y = V c main_v30 y := by
  show V c main_v30 (((cfg6.win 2).blk t).view.emb y) = V c main_v30 y
  obtain ⟨-, -, -, -, e0, e1, -⟩ := pool_block_index_zero t
  refine congrArg _ (funext fun a => Fin.ext ?_)
  match a with
  | ⟨0, _⟩ => show win6_2.index t (0 : Fin 2) * 256 + 1 * (y 0).val = (y 0).val; omega
  | ⟨1, _⟩ => show win6_2.index t (1 : Fin 2) * 64 + 1 * (y 1).val = (y 1).val; omega
theorem pool_read_block_3 (c : Dev nD) (t : Fin cfg6.N) (y : S64x64.Idx) : iblk6 (F := Ideal) V c 3 t y = V c main_arg6 y := by
  show V c main_arg6 (((cfg6.win 3).blk t).view.emb y) = V c main_arg6 y
  obtain ⟨-, -, -, -, -, -, e0, e1, -⟩ := pool_block_index_zero t
  refine congrArg _ (funext fun a => Fin.ext ?_)
  match a with
  | ⟨0, _⟩ => show win6_3.index t (0 : Fin 2) * 64 + 1 * (y 0).val = (y 0).val; omega
  | ⟨1, _⟩ => show win6_3.index t (1 : Fin 2) * 64 + 1 * (y 1).val = (y 1).val; omega
theorem pool_read_block_4 (c : Dev nD) (t : Fin cfg6.N) (y : S64x64.Idx) : iblk6 (F := Ideal) V c 4 t y = V c main_arg7 y := by
  show V c main_arg7 (((cfg6.win 4).blk t).view.emb y) = V c main_arg7 y
  obtain ⟨-, -, -, -, -, -, -, -, e0, e1, -⟩ := pool_block_index_zero t
  refine congrArg _ (funext fun a => Fin.ext ?_)
  match a with
  | ⟨0, _⟩ => show win6_4.index t (0 : Fin 2) * 64 + 1 * (y 0).val = (y 0).val; omega
  | ⟨1, _⟩ => show win6_4.index t (1 : Fin 2) * 64 + 1 * (y 1).val = (y 1).val; omega
theorem pool_read_block_5 (c : Dev nD) (t : Fin cfg6.N) (y : S64x64.Idx) : iblk6 (F := Ideal) V c 5 t y = V c main_arg8 y := by
  show V c main_arg8 (((cfg6.win 5).blk t).view.emb y) = V c main_arg8 y
  obtain ⟨-, -, -, -, -, -, -, -, -, -, e0, e1, -⟩ := pool_block_index_zero t
  refine congrArg _ (funext fun a => Fin.ext ?_)
  match a with
  | ⟨0, _⟩ => show win6_5.index t (0 : Fin 2) * 64 + 1 * (y 0).val = (y 0).val; omega
  | ⟨1, _⟩ => show win6_5.index t (1 : Fin 2) * 64 + 1 * (y 1).val = (y 1).val; omega

/-- The pooled output as one function of the six arrays. -/
abbrev pooled (a1 a2 a3 : FVec Ideal S256x64 .f32) (b1 b2 b3 : FVec Ideal S64x64 .f32) : FVec Ideal S256x64 .f32 :=
  Cert.Gcn.relu (addf (addf (Cert.Gcn.mm a1 b1) (Cert.Gcn.mm a2 b2)) (Cert.Gcn.mm a3 b3))

/-- What the one point writes back is the one block of the pooled output of the arrays as the region finds them. -/
theorem pool_flushed_eq (c : Dev nD) (t : Fin cfg6.N) :
    (dat6 (F := Ideal) V c).flushed 6 t = ((cfg6.win 6).blk t).view.read (Elt Ideal)
      (pooled (V c main_v24) (V c main_v27) (V c main_v30) (V c main_arg6) (V c main_arg7) (V c main_arg8)) := by
  show (cfg6.win 6).cut (grid6.coords t) ((dat6 (F := Ideal) V c).after 6 t) = _
  rw [after6_6]
  unfold out6_6
  rw [View.canon_unit_zero pool_origin_eq]
  simp only [View.ld_unit_zero (S := S256x64) pool_origin_eq, View.ld_unit_zero (S := S64x64) pool_origin_eq]
  rw [pool_pay_eq]
  rw [show (iblk6 (F := Ideal) V c 0 t : Vec Ideal S256x64 .f32) = V c main_v24 from funext (pool_read_block_0 V c t),
    show (iblk6 (F := Ideal) V c 1 t : Vec Ideal S256x64 .f32) = V c main_v27 from funext (pool_read_block_1 V c t),
    show (iblk6 (F := Ideal) V c 2 t : Vec Ideal S256x64 .f32) = V c main_v30 from funext (pool_read_block_2 V c t),
    show (iblk6 (F := Ideal) V c 3 t : Vec Ideal S64x64 .f32) = V c main_arg6 from funext (pool_read_block_3 V c t),
    show (iblk6 (F := Ideal) V c 4 t : Vec Ideal S64x64 .f32) = V c main_arg7 from funext (pool_read_block_4 V c t),
    show (iblk6 (F := Ideal) V c 5 t : Vec Ideal S64x64 .f32) = V c main_arg8 from funext (pool_read_block_5 V c t)]
  funext j
  show pooled (V c main_v24) (V c main_v27) (V c main_v30) (V c main_arg6) (V c main_arg7) (V c main_arg8) j
    = pooled (V c main_v24) (V c main_v27) (V c main_v30) (V c main_arg6) (V c main_arg7) (V c main_arg8) (((cfg6.win 6).blk t).view.emb j)
  obtain ⟨-, -, -, -, -, -, -, -, -, -, -, -, e0, e1⟩ := pool_block_index_zero t
  refine congrArg _ (funext fun a => Fin.ext ?_)
  match a with
  | ⟨0, _⟩ => show (j 0).val = win6_6.index t (0 : Fin 2) * 256 + 1 * (j 0).val; omega
  | ⟨1, _⟩ => show (j 1).val = win6_6.index t (1 : Fin 2) * 64 + 1 * (j 1).val; omega

/-- An index of the array is in point t's block iff each coordinate is in the block's range on its axis. -/
theorem pool_mem_block (t : Fin cfg6.N) (i : S256x64.Idx) :
    i ∈ ((cfg6.win 6).blk t).view.set ↔ ∀ a : Fin 2, win6_6.index t a * S256x64.size a ≤ (i a).val ∧ (i a).val < win6_6.index t a * S256x64.size a + S256x64.size a := by
  show i ∈ ((View.whole main_v31).slice (win6_6.rect t)).set ↔ _
  rw [View.set_slice_whole, Rect.mem_set_unit]
  exact Iff.rfl

/-- The one block is the whole array: every index is in it. -/
theorem pool_covered (i : S256x64.Idx) : ∃ t : Fin cfg6.N, (cfg6.win 6).flush t = true ∧ i ∈ ((cfg6.win 6).blk t).view.set := by
  refine ⟨t6_0, flush6_6 t6_0, ?_⟩
  rw [pool_mem_block]
  obtain ⟨-, -, -, -, -, -, -, -, -, -, -, -, e0, e1⟩ := pool_block_index_zero t6_0
  have h0 : (i 0).val < 256 := (i 0).isLt
  have h1 : (i 1).val < 64 := (i 1).isLt
  intro a
  match a with
  | ⟨0, _⟩ => show win6_6.index t6_0 (0 : Fin 2) * 256 ≤ (i 0).val ∧ (i 0).val < win6_6.index t6_0 (0 : Fin 2) * 256 + 256; omega
  | ⟨1, _⟩ => show win6_6.index t6_0 (1 : Fin 2) * 64 ≤ (i 1).val ∧ (i 1).val < win6_6.index t6_0 (1 : Fin 2) * 64 + 64; omega

/-- Region 6 leaves in its output array the positive part of the sum of the three pooled products. -/
theorem pool6_value (c : Dev nD) :
    (dat6 (F := Ideal) V c).arrAt 6 cfg6.N
      = Cert.Gcn.relu (addf (addf (Cert.Gcn.mm (V c main_v24) (V c main_arg6)) (Cert.Gcn.mm (V c main_v27) (V c main_arg7)))
          (Cert.Gcn.mm (V c main_v30) (V c main_arg8))) :=
  (dat6 (F := Ideal) V c).arrAt_eq_of_cover 6
    (pooled (V c main_v24) (V c main_v27) (V c main_v30) (V c main_arg6) (V c main_arg7) (V c main_arg8))
    (fun t _ => pool_flushed_eq V c t) pool_covered

end Cert.KernelIdeal.Gcn

end
-- ==== Proof.Steps.lean ====
/-
  The kernel program's result, boundary by boundary: each region's output array is the matrix product or the positive
  part of what it read, each host stretch the gather and the sums of what it read, and the buffers in between keep
  their contents; under the precondition the filled gather is the plain gather.  Composed, the result buffer holds the
  network of Spec.lean at the kernel program's own dimension records.
-/
import proofs.«400816_j84945863180634_1_alg».proof.Proof.Gen.KernelIdeal.Frame
import proofs.«400816_j84945863180634_1_alg».proof.Proof.KDefs
import proofs.«400816_j84945863180634_1_alg».proof.Proof.Keep
import proofs.«400816_j84945863180634_1_alg».proof.Proof.HostSteps
import proofs.«400816_j84945863180634_1_alg».proof.Proof.Matmul0
import proofs.«400816_j84945863180634_1_alg».proof.Proof.Matmul2
import proofs.«400816_j84945863180634_1_alg».proof.Proof.Matmul4
import proofs.«400816_j84945863180634_1_alg».proof.Proof.Relu1
import proofs.«400816_j84945863180634_1_alg».proof.Proof.Relu3
import proofs.«400816_j84945863180634_1_alg».proof.Proof.Relu5
import proofs.«400816_j84945863180634_1_alg».proof.Proof.Pool6
import proofs.«400816_j84945863180634_1_alg».proof.Proof.Spec

set_option maxRecDepth 16384

noncomputable section

open scoped BigOperators

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Facts₀ Cert.KernelIdeal.Facts

variable (m : (ℓ : Loc nD τ sig) → Buf (Elt Ideal) ℓ) (ρ : Dev nD → PrngReg)

/-- The nine argument arrays as launched. -/
abbrev X (c : Dev nD) : FVec Ideal S50000x64 .f32 := m ((c.tc : Thread nD τ).loc main_arg0)
abbrev EI (c : Dev nD) : IVec S2x1000000 32 := m ((c.tc : Thread nD τ).loc main_arg1)
abbrev BI (c : Dev nD) : IVec S50000 32 := m ((c.tc : Thread nD τ).loc main_arg2)
abbrev Wt1 (c : Dev nD) : FVec Ideal S64x64 .f32 := m ((c.tc : Thread nD τ).loc main_arg3)
abbrev Wt2 (c : Dev nD) : FVec Ideal S64x64 .f32 := m ((c.tc : Thread nD τ).loc main_arg4)
abbrev Wt3 (c : Dev nD) : FVec Ideal S64x64 .f32 := m ((c.tc : Thread nD τ).loc main_arg5)
abbrev Pt1 (c : Dev nD) : FVec Ideal S64x64 .f32 := m ((c.tc : Thread nD τ).loc main_arg6)
abbrev Pt2 (c : Dev nD) : FVec Ideal S64x64 .f32 := m ((c.tc : Thread nD τ).loc main_arg7)
abbrev Pt3 (c : Dev nD) : FVec Ideal S64x64 .f32 := m ((c.tc : Thread nD τ).loc main_arg8)

/-- The three layers' outputs. -/
def x1 (c : Dev nD) : FVec Ideal S50000x64 .f32 := Cert.Gcn.layer gather_S50000x64_S1000000x1_S1000000x64_1_0_n_n_0_1_164 scatter_S50000x64_S1000000x1_S1000000x64_1_0_0_1 zeroN (wrapIdx (srcOf (EI m c))) (colE (dstOf (EI m c))) (X m c) (Wt1 m c)
def x2 (c : Dev nD) : FVec Ideal S50000x64 .f32 := Cert.Gcn.layer gather_S50000x64_S1000000x1_S1000000x64_1_0_n_n_0_1_164 scatter_S50000x64_S1000000x1_S1000000x64_1_0_0_1 zeroN (wrapIdx (srcOf (EI m c))) (colE (dstOf (EI m c))) (x1 m c) (Wt2 m c)
def x3 (c : Dev nD) : FVec Ideal S50000x64 .f32 := Cert.Gcn.layer gather_S50000x64_S1000000x1_S1000000x64_1_0_n_n_0_1_164 scatter_S50000x64_S1000000x1_S1000000x64_1_0_0_1 zeroN (wrapIdx (srcOf (EI m c))) (colE (dstOf (EI m c))) (x2 m c) (Wt3 m c)

/-- Every source index is a node number (what the precondition gives). -/
def SrcOk (c : Dev nD) : Prop := ∀ e : S1000000.Idx, 0 ≤ (srcOf (EI m c) e).toInt ∧ (srcOf (EI m c) e).toInt < 50000

/-! ## Layer 1 -/

theorem prod1 (c : Dev nD) : Gen.W2 (F := Ideal) m ρ c (Proc.devRef .tc main_v4) = Cert.Gcn.mm (X m c) (Wt1 m c) :=
  (Gen.W2_arr m ρ c 2).trans ((matmul0_value (Gen.V1 m ρ) c).trans
    (congrArg₂ Cert.Gcn.mm (keep_arg0_1 m ρ c) (keep_arg3_1 m ρ c)))

theorem rows1 (c : Dev nD) (h : SrcOk m c) : Gen.W3 (F := Ideal) m ρ c (Proc.devRef .tc main_v5)
    = Host.gather gather_S50000x64_S1000000x1_S1000000x64_1_0_n_n_0_1_164 (Cert.Gcn.mm (X m c) (Wt1 m c)) (wrapIdx (srcOf (EI m c))) := by
  rw [take_3, prod1, keep_v1_2, src_1]
  exact takeK_eq _ _ h

theorem out1 (c : Dev nD) (h : SrcOk m c) : Gen.W5 (F := Ideal) m ρ c (Proc.devRef .tc main_v9) = x1 m c := by
  refine (Gen.W5_arr m ρ c 1).trans ((relu1_value (Gen.V4 m ρ) c).trans ?_)
  show Cert.Gcn.relu (Gen.W4 (F := Ideal) m ρ c (Proc.devRef .tc main_v8)) = _
  rw [agg_4, keep_v3_3, dst_1, rows1 m ρ c h]
  rfl

/-! ## Layer 2 -/

theorem prod2 (c : Dev nD) (h : SrcOk m c) : Gen.W6 (F := Ideal) m ρ c (Proc.devRef .tc main_v10) = Cert.Gcn.mm (x1 m c) (Wt2 m c) :=
  (Gen.W6_arr m ρ c 2).trans ((matmul2_value (Gen.V5 m ρ) c).trans
    (congrArg₂ Cert.Gcn.mm (out1 m ρ c h) (keep_arg4_5 m ρ c)))

theorem rows2 (c : Dev nD) (h : SrcOk m c) : Gen.W7 (F := Ideal) m ρ c (Proc.devRef .tc main_v11)
    = Host.gather gather_S50000x64_S1000000x1_S1000000x64_1_0_n_n_0_1_164 (Cert.Gcn.mm (x1 m c) (Wt2 m c)) (wrapIdx (srcOf (EI m c))) := by
  rw [take_7, prod2 m ρ c h, keep_v1_6, src_1]
  exact takeK_eq _ _ h

theorem out2 (c : Dev nD) (h : SrcOk m c) : Gen.W9 (F := Ideal) m ρ c (Proc.devRef .tc main_v15) = x2 m c := by
  refine (Gen.W9_arr m ρ c 1).trans ((relu3_value (Gen.V8 m ρ) c).trans ?_)
  show Cert.Gcn.relu (Gen.W8 (F := Ideal) m ρ c (Proc.devRef .tc main_v14)) = _
  rw [agg_8, keep_v3_7, dst_1, rows2 m ρ c h]
  rfl

/-! ## Layer 3 -/

theorem prod3 (c : Dev nD) (h : SrcOk m c) : Gen.W10 (F := Ideal) m ρ c (Proc.devRef .tc main_v16) = Cert.Gcn.mm (x2 m c) (Wt3 m c) :=
  (Gen.W10_arr m ρ c 2).trans ((matmul4_value (Gen.V9 m ρ) c).trans
    (congrArg₂ Cert.Gcn.mm (out2 m ρ c h) (keep_arg5_9 m ρ c)))

theorem rows3 (c : Dev nD) (h : SrcOk m c) : Gen.W11 (F := Ideal) m ρ c (Proc.devRef .tc main_v17)
    = Host.gather gather_S50000x64_S1000000x1_S1000000x64_1_0_n_n_0_1_164 (Cert.Gcn.mm (x2 m c) (Wt3 m c)) (wrapIdx (srcOf (EI m c))) := by
  rw [take_11, prod3 m ρ c h, keep_v1_10, src_1]
  exact takeK_eq _ _ h

theorem out3 (c : Dev nD) (h : SrcOk m c) : Gen.W13 (F := Ideal) m ρ c (Proc.devRef .tc main_v21) = x3 m c := by
  refine (Gen.W13_arr m ρ c 1).trans ((relu5_value (Gen.V12 m ρ) c).trans ?_)
  show Cert.Gcn.relu (Gen.W12 (F := Ideal) m ρ c (Proc.devRef .tc main_v20)) = _
  rw [agg_12, keep_v3_11, dst_1, rows3 m ρ c h]
  rfl

/-! ## Pooling and the last region -/

theorem pooled1 (c : Dev nD) (h : SrcOk m c) : Gen.W14 (F := Ideal) m ρ c (Proc.devRef .tc main_v24)
    = Cert.Gcn.pool scatter_S256x64_S50000x1_S50000x64_1_0_0_1 zeroG (colN (BI m c)) (x1 m c) := by
  rw [pool_14a, keep_arg2_13, keep_v9_13, out1 m ρ c h]
  rfl

theorem pooled2 (c : Dev nD) (h : SrcOk m c) : Gen.W14 (F := Ideal) m ρ c (Proc.devRef .tc main_v27)
    = Cert.Gcn.pool scatter_S256x64_S50000x1_S50000x64_1_0_0_1 zeroG (colN (BI m c)) (x2 m c) := by
  rw [pool_14b, keep_arg2_13, keep_v15_13, out2 m ρ c h]
  rfl

theorem pooled3 (c : Dev nD) (h : SrcOk m c) : Gen.W14 (F := Ideal) m ρ c (Proc.devRef .tc main_v30)
    = Cert.Gcn.pool scatter_S256x64_S50000x1_S50000x64_1_0_0_1 zeroG (colN (BI m c)) (x3 m c) := by
  rw [pool_14c, keep_arg2_13, out3 m ρ c h]
  rfl

/-- The result buffer at the last boundary is the network of the nine arguments. -/
theorem kernel_value (c : Dev nD) (h : SrcOk m c) : Gen.W15 (F := Ideal) m ρ c (Proc.devRef .tc main_v31)
    = Cert.Gcn.net gather_S50000x64_S1000000x1_S1000000x64_1_0_n_n_0_1_164 scatter_S50000x64_S1000000x1_S1000000x64_1_0_0_1 scatter_S256x64_S50000x1_S50000x64_1_0_0_1 zeroN zeroG
        (wrapIdx (srcOf (EI m c))) (colE (dstOf (EI m c))) (colN (BI m c))
        (X m c) (Wt1 m c) (Wt2 m c) (Wt3 m c) (Pt1 m c) (Pt2 m c) (Pt3 m c) := by
  refine (Gen.W15_arr m ρ c 6).trans ((pool6_value (Gen.V14 m ρ) c).trans ?_)
  show Cert.Gcn.relu (addf (addf (Cert.Gcn.mm (Gen.W14 (F := Ideal) m ρ c (Proc.devRef .tc main_v24)) (Gen.W14 (F := Ideal) m ρ c (Proc.devRef .tc main_arg6)))
      (Cert.Gcn.mm (Gen.W14 (F := Ideal) m ρ c (Proc.devRef .tc main_v27)) (Gen.W14 (F := Ideal) m ρ c (Proc.devRef .tc main_arg7))))
      (Cert.Gcn.mm (Gen.W14 (F := Ideal) m ρ c (Proc.devRef .tc main_v30)) (Gen.W14 (F := Ideal) m ρ c (Proc.devRef .tc main_arg8)))) = _
  rw [pooled1 m ρ c h, pooled2 m ρ c h, pooled3 m ρ c h, keep_arg6_14, keep_arg7_14, keep_arg8_14]
  rfl

end Cert.KernelIdeal.Gcn

end
-- ==== Proof.lean ====
/-
  The certificate: the kernel program (three graph-convolution layers whose matrix products and positive parts run as
  tiled kernel regions, a gather and two kinds of scatter-add on the host between them, and a last region that multiplies
  the three pooled layer outputs by their matrices, adds them and takes the positive part) against the plain reference.

  Over the extended reals both compute one function of the nine inputs, the network of Proof/Spec.lean: a change of
  float format is the identity, a matrix product into a zero accumulator is the sum of 64 products whatever the tiling
  of the rows, and the positive part is taken entry by entry.  The one place the two programs differ is the gather of
  rows at the edges' source nodes: the kernel's host code replaces a row whose (wrapped) index falls outside the
  table by a fixed word, where the reference reads the nearest row.  Under the precondition every source index is a
  node number, so nothing is replaced and the two gathers agree.

  The frames of the two kernel programs are the generated ones; the reference's frame is its generated run with the
  result dropped; nothing was rewritten by the idealization, so that conjunct is trivial.
-/
import proofs.«400816_j84945863180634_1_alg».proof.Defs
import proofs.«400816_j84945863180634_1_alg».proof.Proof.Gen.Kernel
import proofs.«400816_j84945863180634_1_alg».proof.Proof.Gen.Kernel.Skeleton
import proofs.«400816_j84945863180634_1_alg».proof.Proof.Gen.Kernel.Launch
import proofs.«400816_j84945863180634_1_alg».proof.Proof.Gen.Kernel.Points
import proofs.«400816_j84945863180634_1_alg».proof.Proof.Gen.Kernel.Frame
import proofs.«400816_j84945863180634_1_alg».proof.Proof.Gen.KernelIdeal
import proofs.«400816_j84945863180634_1_alg».proof.Proof.Gen.KernelIdeal.Skeleton
import proofs.«400816_j84945863180634_1_alg».proof.Proof.Gen.KernelIdeal.Launch
import proofs.«400816_j84945863180634_1_alg».proof.Proof.Gen.KernelIdeal.Points
import proofs.«400816_j84945863180634_1_alg».proof.Proof.Gen.KernelIdeal.Frame
import proofs.«400816_j84945863180634_1_alg».proof.Proof.Gen.ReferenceIdeal
import proofs.«400816_j84945863180634_1_alg».proof.Proof.Gen.Pre_finite_inputs
import proofs.«400816_j84945863180634_1_alg».proof.Proof.Gen.ReferenceIdeal.Run
import proofs.«400816_j84945863180634_1_alg».proof.Proof.RefValue
import proofs.«400816_j84945863180634_1_alg».proof.Proof.Launch
import proofs.«400816_j84945863180634_1_alg».proof.Proof.PreDecode
import proofs.«400816_j84945863180634_1_alg».proof.Proof.Steps
import Idealize.ShloMosaic.Adequacy
import Idealize.ShloMosaic.Init

set_option maxRecDepth 65536

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The network at the reference's dimension records and at the kernel program's is one function: the records state
    the same dimension numbers, the zero arrays and index columns are the same terms. -/
theorem net_records
    (ei : IVec Cert.KernelIdeal.S2x1000000 32) (bi : IVec Cert.KernelIdeal.S50000 32)
    (x : FVec Ideal Cert.KernelIdeal.S50000x64 .f32) (w1 w2 w3 p1 p2 p3 : FVec Ideal Cert.KernelIdeal.S64x64 .f32) :
    Cert.Gcn.net Cert.ReferenceIdeal.gather_S50000x64_S1000000x1_S1000000x64_1_0_n_n_0_1_164
        Cert.ReferenceIdeal.scatter_S50000x64_S1000000x1_S1000000x64_1_0_0_1 Cert.ReferenceIdeal.scatter_S256x64_S50000x1_S50000x64_1_0_0_1
        Cert.ReferenceIdeal.Gcn.zeroN Cert.ReferenceIdeal.Gcn.zeroG
        (Cert.ReferenceIdeal.Gcn.wrapIdx (Cert.ReferenceIdeal.Gcn.srcOf ei))
        (broadcastInDim Cert.ReferenceIdeal.S1000000x1 ![0] Cert.ReferenceIdeal.Facts₀.bcast_S1000000_S1000000x1_0 (Cert.ReferenceIdeal.Gcn.dstOf ei))
        (broadcastInDim Cert.ReferenceIdeal.S50000x1 ![0] Cert.ReferenceIdeal.Facts₀.bcast_S50000_S50000x1_0 bi)
        x w1 w2 w3 p1 p2 p3
      = Cert.Gcn.net Cert.KernelIdeal.gather_S50000x64_S1000000x1_S1000000x64_1_0_n_n_0_1_164
        Cert.KernelIdeal.scatter_S50000x64_S1000000x1_S1000000x64_1_0_0_1 Cert.KernelIdeal.scatter_S256x64_S50000x1_S50000x64_1_0_0_1
        Cert.KernelIdeal.Gcn.zeroN Cert.KernelIdeal.Gcn.zeroG
        (Cert.KernelIdeal.Gcn.wrapIdx (Cert.KernelIdeal.Gcn.srcOf ei))
        (Cert.KernelIdeal.Gcn.colE (Cert.KernelIdeal.Gcn.dstOf ei))
        (Cert.KernelIdeal.Gcn.colN bi)
        x w1 w2 w3 p1 p2 p3 :=
  rfl

theorem algebraic : Cert.algebraic_KernelIdeal_ReferenceIdeal := by
  intro m ρ m' ρ' hpre hagree
  refine ⟨fun c => Cert.Gcn.net Cert.KernelIdeal.gather_S50000x64_S1000000x1_S1000000x64_1_0_n_n_0_1_164
      Cert.KernelIdeal.scatter_S50000x64_S1000000x1_S1000000x64_1_0_0_1 Cert.KernelIdeal.scatter_S256x64_S50000x1_S50000x64_1_0_0_1
      Cert.KernelIdeal.Gcn.zeroN Cert.KernelIdeal.Gcn.zeroG
      (Cert.KernelIdeal.Gcn.wrapIdx (Cert.KernelIdeal.Gcn.srcOf (Cert.KernelIdeal.Gcn.EI m c)))
      (Cert.KernelIdeal.Gcn.colE (Cert.KernelIdeal.Gcn.dstOf (Cert.KernelIdeal.Gcn.EI m c)))
      (Cert.KernelIdeal.Gcn.colN (Cert.KernelIdeal.Gcn.BI m c))
      (Cert.KernelIdeal.Gcn.X m c) (Cert.KernelIdeal.Gcn.Wt1 m c) (Cert.KernelIdeal.Gcn.Wt2 m c) (Cert.KernelIdeal.Gcn.Wt3 m c)
      (Cert.KernelIdeal.Gcn.Pt1 m c) (Cert.KernelIdeal.Gcn.Pt2 m c) (Cert.KernelIdeal.Gcn.Pt3 m c), ?_, ?_⟩
  · exact (θ_run Cert.KernelIdeal.defs _ _).mono
      (fun r h c => ⟨(h c).1.trans (Cert.KernelIdeal.Gcn.kernel_value m ρ c
        (fun e => Cert.KernelIdeal.Gcn.src_in_range m hpre c e)), (h c).2⟩)
      (Cert.KernelIdeal.Gcn.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Gcn.ref_value, h0, h1, h2, h3, h4, h5, h6, h7, h8]
    exact net_records _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
